-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 79
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg0) S5000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v56) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S128x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call2_cst : Ref sig .tc := ⟨.hbm, 111, rfl⟩
abbrev main_call2_v0 : Ref sig .tc := ⟨.hbm, 112, rfl⟩
abbrev main_v67 : Ref sig .tc := ⟨.hbm, 113, rfl⟩
abbrev main_v68 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«109825_j67920612819495_1_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.Spec.lean ====
/-
  The mathematics of the layer, free of either program: a graph-convolution output `a` (rows = nodes, columns =
  channels), a bias row `b`, batch statistics over the nodes, the normalisation, the rectifier and the residual.

  * `biased a b n q`      : entry (n, q) of `a` plus the bias of channel q.
  * `sumRow`, `sumSqRow`   : per channel, the sum over all 100000 nodes of the biased entry, and of its square.
  * `epilogue`             : per entry, max(((a + b) - mean) * rsqrt(var + eps) * gamma + beta, 0) + x.
  * `var_identity`         : over REAL entries the mean of squares minus the squared mean is the mean of the squared
                             deviations — the one law that joins the two programs, and the one place finiteness is used:
                             on the extended reals it fails as soon as one entry is infinite.
-/
import Idealize.ShloMosaic.PureOps.Ideal
import Idealize.ShloMosaic.Lib.ValueIdx
import proofs.«109825_j67920612819495_1_alg».proof.Proof.LibERealArith
import proofs.«109825_j67920612819495_1_alg».proof.Proof.LibRealArr
import Mathlib.Algebra.BigOperators.Group.Finset.Basic
import Mathlib.Algebra.BigOperators.Ring.Finset
import Mathlib.Data.Fintype.Card
import Mathlib.Tactic.Ring
import Mathlib.Tactic.FieldSimp
import Mathlib.Tactic.NormNum

noncomputable section

namespace Cert.Spec

open Idealize.ShloMosaic Idealize.ShloMosaic.ValueIdx
open scoped BigOperators

/-- nodes × channels -/
abbrev SNC : Shape := ⟨2, ![100000, 128]⟩
/-- one row of channels -/
abbrev S1C : Shape := ⟨2, ![1, 128]⟩

/-- The number of nodes as the f32 word the programs divide by. -/
abbrev cN : EReal := Ideal.ofBits .f32 0x47C35000#32
/-- The variance offset, the f32 nearest 1e-5. -/
abbrev cEps : EReal := Ideal.ofBits .f32 0x3727C5AC#32
/-- The f32 zero word. -/
abbrev cZero : EReal := Ideal.ofBits .f32 0x00000000#32

/-- Entry (n, q) of `a` plus channel q's bias. -/
def biased (a : SNC.Idx → EReal) (b : S1C.Idx → EReal) (n : Fin 100000) (q : Fin 128) : EReal :=
  a (ix2 n q) + b (ix2 (0 : Fin 1) q)

/-- Per channel, the sum of the biased entries over all nodes. -/
def sumRow (a : SNC.Idx → EReal) (b : S1C.Idx → EReal) : S1C.Idx → EReal :=
  fun j => ∑ n : Fin 100000, biased a b n (j 1)

/-- Per channel, the sum of the squared biased entries over all nodes. -/
def sumSqRow (a : SNC.Idx → EReal) (b : S1C.Idx → EReal) : S1C.Idx → EReal :=
  fun j => ∑ n : Fin 100000, biased a b n (j 1) * biased a b n (j 1)

/-- Normalise, scale, shift, rectify, add the residual. -/
def epilogue (a : SNC.Idx → EReal) (b mean var g be : S1C.Idx → EReal) (x : SNC.Idx → EReal) : SNC.Idx → EReal :=
  fun i => max ((biased a b (i 0) (i 1) - mean (ix2 (0 : Fin 1) (i 1))) * Ideal.rsqrt (var (ix2 (0 : Fin 1) (i 1)) + cEps)
      * g (ix2 (0 : Fin 1) (i 1)) + be (ix2 (0 : Fin 1) (i 1))) cZero + x i

/-- The identity over ℝ, with N = 100000 and S = ∑ f: expanding (f n - S/N)² = f n² - 2 (S/N) f n + (S/N)² and summing
over the N nodes gives ∑ f n² - 2 (S/N) S + N (S/N)², whose quotient by N is (∑ f n²)/N - (S/N)². -/
private theorem real_var (f : Fin 100000 → ℝ) :
    (∑ n, (f n - (∑ k, f k) / 100000) * (f n - (∑ k, f k) / 100000)) / 100000
      = (∑ n, f n * f n) / 100000 - (∑ k, f k) / 100000 * ((∑ k, f k) / 100000) := by
  generalize hS : (∑ k, f k) = S
  have h1 : ∑ n, (f n - S / 100000) * (f n - S / 100000)
      = ∑ n, f n * f n - 2 * (S / 100000) * S + 100000 * (S / 100000 * (S / 100000)) := by
    have e : ∀ n, (f n - S / 100000) * (f n - S / 100000)
        = f n * f n - 2 * (S / 100000) * f n + S / 100000 * (S / 100000) := by intro n; ring
    simp only [e]
    rw [Finset.sum_add_distrib, Finset.sum_sub_distrib, ← Finset.mul_sum, hS, Finset.sum_const,
      Finset.card_univ, Fintype.card_fin, nsmul_eq_mul]
    norm_num
  rw [h1]; field_simp; ring

open Cert.Lib.ERealArith in
/-- Over real entries: mean of squared deviations = mean of squares - squared mean (all quotients by the word 100000). -/
theorem var_identity (o : Fin 100000 → EReal) (ho : ∀ n, Cert.Val.IsReal (o n)) :
    Ideal.div (∑ n, (o n - Ideal.div (∑ k, o k) cN) * (o n - Ideal.div (∑ k, o k) cN)) cN
      = Ideal.div (∑ n, o n * o n) cN - Ideal.div (∑ k, o k) cN * Ideal.div (∑ k, o k) cN := by
  -- every entry is the coercion of a real; the divisor word is the real 100000; each extended-real operation on
  -- coercions is the coercion of the real operation, so both sides are coercions and the real identity closes it
  choose f hf using ho
  obtain rfl : o = fun n => ((f n : ℝ) : EReal) := funext hf
  have hN : (100000 : ℝ) ≠ 0 := by norm_num
  simp only [cN, ofBits_100000, univ_sum_coe, div_coe hN, sub_coe, mul_coe]
  rw [real_var]

end Cert.Spec

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«109825_j67920612819495_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.KChain.lean ====
/-
  The kernel program's host chain as pure functions of the arguments: the source and destination index lists (edges, then
  one self-loop per node), the in-degrees, their guarded reciprocal square roots, the per-edge normalisation, the
  aggregate (rows gathered at the sources, scaled, scatter-added at the destinations), and the whole result: the linear
  transform, the aggregate, the batch mean and "mean of squares minus squared mean" variance, the epilogue.
-/
import proofs.«109825_j67920612819495_1_alg».proof.Proof.Gen.KernelIdeal.Frame
import proofs.«109825_j67920612819495_1_alg».proof.Proof.Spec
import proofs.«109825_j67920612819495_1_alg».proof.Proof.LibRowBlockProduct
import Idealize.ShloMosaic.Lib.StableHlo.Run
import Idealize.ShloMosaic.PureOps.Ideal

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

/-- Row `r` of the edge list followed by 0, 1, …, 99999: the 1700000 endpoints, edges first, then the self-loops. -/
def endpoints (off : Fin S2x1600000.rank → Nat) (hs : S2x1600000.Slices off S1x1600000) (EI : IVec S2x1600000 32) : IVec S1700000 32 :=
  concatenate S1700000 0
    [⟨S1600000, shapeCast S1600000 (extractStridedSlice S1x1600000 off EI hs) shapeCasts_S1x1600000_S1600000⟩,
     ⟨S100000, iotaInDim S100000 32 0⟩]
    concatenates_S1600000_S100000_S1700000_d0

/-- The sources. -/
def kSrc (EI : IVec S2x1600000 32) : IVec S1700000 32 := endpoints ![0, 0] slices_S2x1600000_S1x1600000_0_0 EI
/-- The destinations. -/
def kDst (EI : IVec S2x1600000 32) : IVec S1700000 32 := endpoints ![1, 0] slices_S2x1600000_S1x1600000_1_0 EI

/-- In-degree of every node, self-loop included: ones scattered onto zeros at the destinations. -/
def kDeg (EI : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (kDst EI))
    (broadcastInDim S1700000 ![] bcast_S_S1700000 (constant (F := Ideal) S_ .f32 0x3F800000#32))

/-- deg^(-1/2) where the degree is positive, 0 elsewhere. -/
def kDinv (EI : IVec S2x1600000 32) : FVec Ideal S100000 .f32 :=
  select (cmpf .ogt (kDeg EI) (broadcastInDim S100000 ![] bcast_S_S100000 (constant (F := Ideal) S_ .f32 0x00000000#32)))
    (Host.rsqrt (kDeg EI))
    (broadcastInDim S100000 ![] bcast_S_S100000 (id (constant (F := Ideal) S_ .f32 0x00000000#32)))

/-- jnp's index normalisation (a negative index counts from the end), as a column of start indices. -/
def kWrap (idx : IVec S1700000 32) : IVec S1700000x1 32 :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- The per-edge coefficient dinv[src] * dinv[dst]. -/
def kNorm (EI : IVec S2x1600000 32) : FVec Ideal S1700000 .f32 :=
  mulf (Host.gather gather_S100000_S1700000x1_S1700000_n_0_n_n_0_1_1 (kDinv EI) (kWrap (kSrc EI)))
    (Host.gather gather_S100000_S1700000x1_S1700000_n_0_n_n_0_1_1 (kDinv EI) (kWrap (kDst EI)))

/-- The aggregation from its four ingredients: rows of `h` gathered at the sources, scaled by the coefficient,
    scatter-added at the destinations. -/
def aggOf (src dst : IVec S1700000 32) (nrm : FVec Ideal S1700000 .f32) (h : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (Host.gather gather_S100000x128_S1700000x1_S1700000x128_1_0_n_n_0_1_1128 h (kWrap src))
      (broadcastInDim S1700000x128 ![0, 1] bcast_S1700000x1_S1700000x128_0_1
        (broadcastInDim S1700000x1 ![0] bcast_S1700000_S1700000x1_0 nrm)))

/-- The aggregate as a function of the edge list and of the transformed features. -/
def kAgg (EI : IVec S2x1600000 32) (h : FVec Ideal S100000x128 .f32) : FVec Ideal S100000x128 .f32 :=
  aggOf (kSrc EI) (kDst EI) (kNorm EI) h

/-- A 128-vector as a one-row matrix. -/
def rowOf (v : FVec Ideal S128 .f32) : FVec Ideal S1x128 .f32 := shapeCast S1x128 v shapeCasts_S128_S1x128

/-- A row divided by the word 100000. -/
def overN (s : FVec Ideal S1x128 .f32) : FVec Ideal S1x128 .f32 :=
  Host.divf s (broadcastInDim S1x128 ![] bcast_S_S1x128 (constant (F := Ideal) S_ .f32 0x47C35000#32))

/-- The kernel program's result as a function of its six arguments. -/
def kOut (X : FVec Ideal S100000x128 .f32) (EI : IVec S2x1600000 32) (W : FVec Ideal S128x128 .f32)
    (B G Be : FVec Ideal S128 .f32) : FVec Ideal S100000x128 .f32 :=
  let a := kAgg EI (RowBlockProduct.prod (R := 100000) (K := 128) (N := 128) X (transpose S128x128 [1, 0] W transposes_S128x128_S128x128_1_0))
  let mean := overN (Cert.Spec.sumRow a (rowOf B))
  let var := subf (overN (Cert.Spec.sumSqRow a (rowOf B))) (mulf mean mean)
  Cert.Spec.epilogue a (rowOf B) mean var (rowOf G) (rowOf Be) X

end Cert.KernelIdeal.KChain

end
-- ==== Proof.KHost.lean ====
/-
  The kernel program's host stretches, read as values: each lemma reads ONE buffer at ONE segment boundary of the
  generated run as a term of the contents at the boundary before it (or, before region 0, of the launch contents).
-/
import proofs.«109825_j67920612819495_1_alg».proof.Proof.Gen.KernelIdeal.Frame
import proofs.«109825_j67920612819495_1_alg».proof.Proof.KChain
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen Cert.KernelIdeal.KChain

variable (m : (ℓ : Loc nD τ sig) → Buf (Elt Ideal) ℓ) (ρ : Dev nD → PrngReg)

/-! ## The first three stretches, each from ANY contents before it -/

section Stretches

variable (Wp : Valuation τ sig (Elt Ideal))

set_option maxHeartbeats 4000000 in
theorem s0_src : StableHlo.after hostOps0 Wp (Proc.devRef .tc main_v3) = kSrc (Wp (Proc.devRef .tc main_arg1)) := by
  after_results
  rfl

set_option maxHeartbeats 4000000 in
theorem s0_dst : StableHlo.after hostOps0 Wp (Proc.devRef .tc main_v6) = kDst (Wp (Proc.devRef .tc main_arg1)) := by
  after_results
  rfl

set_option maxHeartbeats 4000000 in
theorem s0_cmp : StableHlo.after hostOps0 Wp (Proc.devRef .tc main_v12)
    = cmpf .ogt (kDeg (Wp (Proc.devRef .tc main_arg1))) (broadcastInDim S100000 ![] bcast_S_S100000 (constant (F := Ideal) S_ .f32 0x00000000#32)) := by
  after_results
  rfl

set_option maxHeartbeats 4000000 in
theorem s0_rsq : StableHlo.after hostOps0 Wp (Proc.devRef .tc main_v13) = Host.rsqrt (kDeg (Wp (Proc.devRef .tc main_arg1))) := by
  after_results
  rfl

set_option maxHeartbeats 4000000 in
theorem s0_zero : StableHlo.after hostOps0 Wp (Proc.devRef .tc main_cst_2) = constant (F := Ideal) S_ .f32 0x00000000#32 := by
  after_results

set_option maxHeartbeats 4000000 in
theorem s0_keep : StableHlo.after hostOps0 Wp (Proc.devRef .tc main_arg0) = Wp (Proc.devRef .tc main_arg0)
    ∧ StableHlo.after hostOps0 Wp (Proc.devRef .tc main_arg2) = Wp (Proc.devRef .tc main_arg2)
    ∧ StableHlo.after hostOps0 Wp (Proc.devRef .tc main_arg3) = Wp (Proc.devRef .tc main_arg3)
    ∧ StableHlo.after hostOps0 Wp (Proc.devRef .tc main_arg4) = Wp (Proc.devRef .tc main_arg4)
    ∧ StableHlo.after hostOps0 Wp (Proc.devRef .tc main_arg5) = Wp (Proc.devRef .tc main_arg5) := by
  refine ⟨?_, ?_, ?_, ?_, ?_⟩ <;> after_results

set_option maxHeartbeats 4000000 in
theorem s1_dinv : StableHlo.after hostOps0_1 Wp (Proc.devRef .tc main_v14)
    = select (Wp (Proc.devRef .tc main_v12)) (Wp (Proc.devRef .tc main_v13))
        (broadcastInDim S100000 ![] bcast_S_S100000 (id (Wp (Proc.devRef .tc main_cst_2)))) := by
  after_results
  rfl

set_option maxHeartbeats 4000000 in
theorem s1_keep : StableHlo.after hostOps0_1 Wp (Proc.devRef .tc main_v3) = Wp (Proc.devRef .tc main_v3)
    ∧ StableHlo.after hostOps0_1 Wp (Proc.devRef .tc main_v6) = Wp (Proc.devRef .tc main_v6)
    ∧ StableHlo.after hostOps0_1 Wp (Proc.devRef .tc main_arg0) = Wp (Proc.devRef .tc main_arg0)
    ∧ StableHlo.after hostOps0_1 Wp (Proc.devRef .tc main_arg2) = Wp (Proc.devRef .tc main_arg2)
    ∧ StableHlo.after hostOps0_1 Wp (Proc.devRef .tc main_arg3) = Wp (Proc.devRef .tc main_arg3)
    ∧ StableHlo.after hostOps0_1 Wp (Proc.devRef .tc main_arg4) = Wp (Proc.devRef .tc main_arg4)
    ∧ StableHlo.after hostOps0_1 Wp (Proc.devRef .tc main_arg5) = Wp (Proc.devRef .tc main_arg5) := by
  refine ⟨?_, ?_, ?_, ?_, ?_, ?_, ?_⟩ <;> after_results

set_option maxHeartbeats 4000000 in
theorem s2_norm : StableHlo.after hostOps0_2 Wp (Proc.devRef .tc main_v29)
    = (mulf (Host.gather gather_S100000_S1700000x1_S1700000_n_0_n_n_0_1_1 (Wp (Proc.devRef .tc main_v14) : FVec Ideal S100000 .f32) (kWrap (Wp (Proc.devRef .tc main_v3))))
        (Host.gather gather_S100000_S1700000x1_S1700000_n_0_n_n_0_1_1 (Wp (Proc.devRef .tc main_v14) : FVec Ideal S100000 .f32) (kWrap (Wp (Proc.devRef .tc main_v6)))) : FVec Ideal S1700000 .f32) := by
  after_results
  rfl

set_option maxHeartbeats 4000000 in
theorem s2_wt : StableHlo.after hostOps0_2 Wp (Proc.devRef .tc main_v30)
    = transpose S128x128 [1, 0] (Wp (Proc.devRef .tc main_arg2)) transposes_S128x128_S128x128_1_0 := by
  after_results

set_option maxHeartbeats 4000000 in
theorem s2_keep : StableHlo.after hostOps0_2 Wp (Proc.devRef .tc main_v3) = Wp (Proc.devRef .tc main_v3)
    ∧ StableHlo.after hostOps0_2 Wp (Proc.devRef .tc main_v6) = Wp (Proc.devRef .tc main_v6)
    ∧ StableHlo.after hostOps0_2 Wp (Proc.devRef .tc main_arg0) = Wp (Proc.devRef .tc main_arg0)
    ∧ StableHlo.after hostOps0_2 Wp (Proc.devRef .tc main_arg3) = Wp (Proc.devRef .tc main_arg3)
    ∧ StableHlo.after hostOps0_2 Wp (Proc.devRef .tc main_arg4) = Wp (Proc.devRef .tc main_arg4)
    ∧ StableHlo.after hostOps0_2 Wp (Proc.devRef .tc main_arg5) = Wp (Proc.devRef .tc main_arg5) := by
  refine ⟨?_, ?_, ?_, ?_, ?_, ?_⟩ <;> after_results

end Stretches

/-! ## Region 0's entry: the three stretches composed, from the launch contents -/

theorem W3_src (c : Dev nD) : W3 (F := Ideal) m ρ c (Proc.devRef .tc main_v3) = kSrc (m ((c.tc : Thread nD τ).loc main_arg1)) :=
  ((s2_keep (W2 m ρ c)).1.trans (s1_keep (W1 m ρ c)).1).trans (s0_src (W0 m ρ c))

theorem W3_dst (c : Dev nD) : W3 (F := Ideal) m ρ c (Proc.devRef .tc main_v6) = kDst (m ((c.tc : Thread nD τ).loc main_arg1)) :=
  ((s2_keep (W2 m ρ c)).2.1.trans (s1_keep (W1 m ρ c)).2.1).trans (s0_dst (W0 m ρ c))

/-- The guarded reciprocal roots after the second stretch. -/
theorem W2_dinv (c : Dev nD) : W2 (F := Ideal) m ρ c (Proc.devRef .tc main_v14) = kDinv (m ((c.tc : Thread nD τ).loc main_arg1)) := by
  show StableHlo.after hostOps0_1 (W1 m ρ c) (Proc.devRef .tc main_v14) = _
  rw [s1_dinv (W1 m ρ c)]
  show select (StableHlo.after hostOps0 (W0 m ρ c) (Proc.devRef .tc main_v12)) (StableHlo.after hostOps0 (W0 m ρ c) (Proc.devRef .tc main_v13))
      (broadcastInDim S100000 ![] bcast_S_S100000 (id (StableHlo.after hostOps0 (W0 m ρ c) (Proc.devRef .tc main_cst_2)))) = _
  rw [s0_cmp, s0_rsq, s0_zero]
  rfl

theorem W3_norm (c : Dev nD) : W3 (F := Ideal) m ρ c (Proc.devRef .tc main_v29) = kNorm (m ((c.tc : Thread nD τ).loc main_arg1)) := by
  have e3 : W2 (F := Ideal) m ρ c (Proc.devRef .tc main_v3) = kSrc (m ((c.tc : Thread nD τ).loc main_arg1)) :=
    (s1_keep (W1 m ρ c)).1.trans (s0_src (W0 m ρ c))
  have e6 : W2 (F := Ideal) m ρ c (Proc.devRef .tc main_v6) = kDst (m ((c.tc : Thread nD τ).loc main_arg1)) :=
    (s1_keep (W1 m ρ c)).2.1.trans (s0_dst (W0 m ρ c))
  show StableHlo.after hostOps0_2 (W2 m ρ c) (Proc.devRef .tc main_v29) = _
  rw [s2_norm (W2 m ρ c), W2_dinv, e3, e6]
  rfl

theorem W3_wt (c : Dev nD) : W3 (F := Ideal) m ρ c (Proc.devRef .tc main_v30)
    = transpose S128x128 [1, 0] (m ((c.tc : Thread nD τ).loc main_arg2)) transposes_S128x128_S128x128_1_0 := by
  show StableHlo.after hostOps0_2 (W2 m ρ c) (Proc.devRef .tc main_v30) = _
  rw [s2_wt (W2 m ρ c)]
  show transpose S128x128 [1, 0] (StableHlo.after hostOps0_1 (W1 m ρ c) (Proc.devRef .tc main_arg2)) _ = _
  rw [(s1_keep (W1 m ρ c)).2.2.2.1]
  show transpose S128x128 [1, 0] (StableHlo.after hostOps0 (W0 m ρ c) (Proc.devRef .tc main_arg2)) _ = _
  rw [(s0_keep (W0 m ρ c)).2.1]

theorem W3_arg0 (c : Dev nD) : W3 (F := Ideal) m ρ c (Proc.devRef .tc main_arg0) = m ((c.tc : Thread nD τ).loc main_arg0) :=
  ((s2_keep (W2 m ρ c)).2.2.1.trans (s1_keep (W1 m ρ c)).2.2.1).trans (s0_keep (W0 m ρ c)).1

theorem W3_arg3 (c : Dev nD) : W3 (F := Ideal) m ρ c (Proc.devRef .tc main_arg3) = m ((c.tc : Thread nD τ).loc main_arg3) :=
  ((s2_keep (W2 m ρ c)).2.2.2.1.trans (s1_keep (W1 m ρ c)).2.2.2.2.1).trans (s0_keep (W0 m ρ c)).2.2.1

theorem W3_arg4 (c : Dev nD) : W3 (F := Ideal) m ρ c (Proc.devRef .tc main_arg4) = m ((c.tc : Thread nD τ).loc main_arg4) :=
  ((s2_keep (W2 m ρ c)).2.2.2.2.1.trans (s1_keep (W1 m ρ c)).2.2.2.2.2.1).trans (s0_keep (W0 m ρ c)).2.2.2.1

theorem W3_arg5 (c : Dev nD) : W3 (F := Ideal) m ρ c (Proc.devRef .tc main_arg5) = m ((c.tc : Thread nD τ).loc main_arg5) :=
  ((s2_keep (W2 m ρ c)).2.2.2.2.2.trans (s1_keep (W1 m ρ c)).2.2.2.2.2.2).trans (s0_keep (W0 m ρ c)).2.2.2.2

/-! ## Region 1's entry: after the fourth stretch, from region 0's exit contents -/

set_option maxHeartbeats 4000000 in
theorem W5_agg (c : Dev nD) : W5 (F := Ideal) m ρ c (Proc.devRef .tc main_v44)
    = aggOf (W4 m ρ c (Proc.devRef .tc main_v3)) (W4 m ρ c (Proc.devRef .tc main_v6)) (W4 m ρ c (Proc.devRef .tc main_v29))
        (W4 m ρ c (Proc.devRef .tc main_v31)) := by
  show StableHlo.after hostOps1 (W4 m ρ c) (Proc.devRef .tc main_v44) = _
  after_results
  rfl

set_option maxHeartbeats 4000000 in
theorem W5_bias (c : Dev nD) : W5 (F := Ideal) m ρ c (Proc.devRef .tc main_v45) = rowOf (W4 m ρ c (Proc.devRef .tc main_arg3)) := by
  show StableHlo.after hostOps1 (W4 m ρ c) (Proc.devRef .tc main_v45) = _
  after_results
  rfl

set_option maxHeartbeats 4000000 in
theorem W5_keep (c : Dev nD) : W5 (F := Ideal) m ρ c (Proc.devRef .tc main_arg0) = W4 m ρ c (Proc.devRef .tc main_arg0)
    ∧ W5 (F := Ideal) m ρ c (Proc.devRef .tc main_arg3) = W4 m ρ c (Proc.devRef .tc main_arg3)
    ∧ W5 (F := Ideal) m ρ c (Proc.devRef .tc main_arg4) = W4 m ρ c (Proc.devRef .tc main_arg4)
    ∧ W5 (F := Ideal) m ρ c (Proc.devRef .tc main_arg5) = W4 m ρ c (Proc.devRef .tc main_arg5) := by
  refine ⟨?_, ?_, ?_, ?_⟩
  · show StableHlo.after hostOps1 (W4 m ρ c) (Proc.devRef .tc main_arg0) = _
    after_results
  · show StableHlo.after hostOps1 (W4 m ρ c) (Proc.devRef .tc main_arg3) = _
    after_results
  · show StableHlo.after hostOps1 (W4 m ρ c) (Proc.devRef .tc main_arg4) = _
    after_results
  · show StableHlo.after hostOps1 (W4 m ρ c) (Proc.devRef .tc main_arg5) = _
    after_results

/-! ## Region 2's entry: after the fifth stretch, from region 1's exit contents -/

set_option maxHeartbeats 4000000 in
theorem W7_mean (c : Dev nD) : W7 (F := Ideal) m ρ c (Proc.devRef .tc main_v48) = overN (W6 m ρ c (Proc.devRef .tc main_v46_0)) := by
  show StableHlo.after hostOps2 (W6 m ρ c) (Proc.devRef .tc main_v48) = _
  after_results
  rfl

set_option maxHeartbeats 4000000 in
theorem W7_var (c : Dev nD) : W7 (F := Ideal) m ρ c (Proc.devRef .tc main_v52)
    = subf (overN (W6 m ρ c (Proc.devRef .tc main_v46_1)))
        (mulf (overN (W6 m ρ c (Proc.devRef .tc main_v46_0))) (overN (W6 m ρ c (Proc.devRef .tc main_v46_0)))) := by
  show StableHlo.after hostOps2 (W6 m ρ c) (Proc.devRef .tc main_v52) = _
  after_results
  rfl

set_option maxHeartbeats 4000000 in
theorem W7_rows (c : Dev nD) : W7 (F := Ideal) m ρ c (Proc.devRef .tc main_v53) = rowOf (W6 m ρ c (Proc.devRef .tc main_arg3))
    ∧ W7 (F := Ideal) m ρ c (Proc.devRef .tc main_v54) = rowOf (W6 m ρ c (Proc.devRef .tc main_arg4))
    ∧ W7 (F := Ideal) m ρ c (Proc.devRef .tc main_v55) = rowOf (W6 m ρ c (Proc.devRef .tc main_arg5)) := by
  refine ⟨?_, ?_, ?_⟩
  · show StableHlo.after hostOps2 (W6 m ρ c) (Proc.devRef .tc main_v53) = _
    after_results
    rfl
  · show StableHlo.after hostOps2 (W6 m ρ c) (Proc.devRef .tc main_v54) = _
    after_results
    rfl
  · show StableHlo.after hostOps2 (W6 m ρ c) (Proc.devRef .tc main_v55) = _
    after_results
    rfl

set_option maxHeartbeats 4000000 in
theorem W7_keep (c : Dev nD) : W7 (F := Ideal) m ρ c (Proc.devRef .tc main_v44) = W6 m ρ c (Proc.devRef .tc main_v44)
    ∧ W7 (F := Ideal) m ρ c (Proc.devRef .tc main_arg0) = W6 m ρ c (Proc.devRef .tc main_arg0) := by
  refine ⟨?_, ?_⟩
  · show StableHlo.after hostOps2 (W6 m ρ c) (Proc.devRef .tc main_v44) = _
    after_results
  · show StableHlo.after hostOps2 (W6 m ρ c) (Proc.devRef .tc main_arg0) = _
    after_results

end Cert.KernelIdeal.KHost

end
-- ==== Proof.KRegion0.lean ====
/-
  Region 0 (the linear transform): every grid point multiplies its 5000-row block of the node features by the whole
  128 x 128 weight matrix, so the array the region leaves is the whole matrix product.
-/
import proofs.«109825_j67920612819495_1_alg».proof.Proof.Gen.KernelIdeal.Frame
import proofs.«109825_j67920612819495_1_alg».proof.Proof.Spec
import proofs.«109825_j67920612819495_1_alg».proof.Proof.LibPlainDot
import proofs.«109825_j67920612819495_1_alg».proof.Proof.LibRowBlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.ValueIdx Idealize.SL.Sem
open Cert.KernelIdeal Cert.KernelIdeal.Gen
open scoped BigOperators

/-- The zero offset of a whole-buffer access. -/
private theorem hz : (![0, 0] : Fin 2 → Nat) = fun _ => 0 := funext fun a => by fin_cases a <;> rfl

/-- The body's product contracts the first operand's columns with the second's rows and has no batch axes. -/
private theorem isPlain0 : PlainDot.IsPlain dot_S5000x128_S128x128_S5000x128_1_0_0_1_n_n := ⟨rfl, rfl, rfl, rfl, rfl, rfl⟩

set_option maxHeartbeats 400000 in
/-- The body's payload at entry (p, q): when the first block holds the rows `o … o + 4999` of `A` and the second
    block is `B`, the narrowing to bf16 being the identity on extended reals and the accumulator zero, the payload
    is the whole product `A · B` at row `o + p`, column `q`. -/
private theorem pay_apply (A : S100000x128.Idx → EReal) (B : S128x128.Idx → EReal)
    (x0 : Vec Ideal S5000x128 .f32) (x1 : Vec Ideal S128x128 .f32) (o : ℕ) (ho : o + 5000 ≤ 100000)
    (hx0 : ∀ (p : Fin 5000) (k : Fin 128), x0 (ix2 p k) = A (ix2 ⟨o + p.val, by have := p.isLt; omega⟩ k))
    (hx1 : ∀ (k : Fin 128) (q : Fin 128), x1 (ix2 k q) = B (ix2 k q)) (p : Fin 5000) (q : Fin 128) :
    k0_pay1 (F := Ideal) x0 x1 (ix2 p q)
      = RowBlockProduct.prod (R := 100000) (K := 128) (N := 128) A B (ix2 ⟨o + p.val, by have := p.isLt; omega⟩ q) := by
  unfold k0_pay1
  rw [shapeCast_self]
  exact RowBlockProduct.matmul_rows isPlain0 none A B _ _ o ho hx0 hx1 p q

/-- The index maps over the 20 grid points: the first operand's and the output's blocks are row block `t`, column
    block 0; the second operand's block is always block (0, 0). -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- An index of the output array is in point `t`'s block iff each coordinate is in the block's range on its axis. -/
private theorem mem_blk (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v31).slice (win0_2.rect t)).set ↔ _
  rw [View.set_slice_whole, Rect.mem_set_unit]
  exact Iff.rfl

/-- The output's blocks cover its array: row `r` lies in the block of point `r / 5000`, and every point writes back. -/
private theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, by rw [show cfg0.N = 20 from N_0]; omega⟩, rfl⟩
  obtain ⟨e0, e1, e2, e3, e4, e5, ht⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

variable (V : (c : Dev nD) → (b : Ref sig .tc) → Buf (Elt Ideal) ((c : Thread nD τ).loc b))

set_option maxHeartbeats 400000 in
/-- What point `t` writes back is block `t` of the whole product: entry (p, q) of the body's result is the product at
    row `5000 t + p`, column `q`, since the first block is the rows `5000 t …` of the first array, the second block the
    whole second array, and the output's block sits at the same rows. -/
private theorem flushed_eq (c : Dev nD) (t : Fin cfg0.N) :
    (dat0 (F := Ideal) V c).flushed 2 t
      = ((cfg0.win 2).blk t).view.read (Elt Ideal)
          (RowBlockProduct.prod (R := 100000) (K := 128) (N := 128) (V c main_arg0) (V c main_v30) : S100000x128.Idx → EReal) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5, ht⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = RowBlockProduct.prod (R := 100000) (K := 128) (N := 128) (V c main_arg0) (V c main_v30) (((cfg0.win 2).blk t).view.emb (ix2 p q))
  have hrow : ((cfg0.win 2).blk t).view.emb (ix2 p q) = ix2 ⟨5000 * t.val + p.val, by have := p.isLt; omega⟩ q := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  rw [hrow]
  refine pay_apply (V c main_arg0) (V c main_v30) _ _ (5000 * t.val) (by omega) ?_ ?_ p q
  · intro p k
    show V c main_arg0 (((cfg0.win 0).blk t).view.emb (ix2 p k)) = _
    refine congrArg _ ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  · intro k q
    show V c main_v30 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- After region 0 its output array holds the product of the first operand's array by the second's, for any contents
    `V` the region is entered at. -/
theorem arr_h (c : Dev nD) :
    (dat0 (F := Ideal) V c).arrAt 2 cfg0.N
      = (RowBlockProduct.prod (R := 100000) (K := 128) (N := 128) (V c main_arg0) (V c main_v30) : S100000x128.Idx → EReal) := by
  exact (dat0 (F := Ideal) V c).arrAt_eq_of_cover 2 _ (fun t _ => flushed_eq V c t) cover

end Cert.KernelIdeal.Val0

end
-- ==== Proof.LibSumReindex.lean ====
/-
  Three re-indexings of a finite sum over the multi-indices of a shape, valued in any commutative additive monoid
  (the extended reals among them), generic in the sizes:

    sum_shapeCast   a shape cast permutes the entries, so it keeps their sum;
    sum_pad_zero    a pad whose padding value is zero adds only zeros, so it keeps the operand's sum
                    (any rank, any low / high / interior padding);
    sum_rowBlocks   the sum over an [T·R, C] matrix is the sum, over its T row blocks of R rows, of each block's sum.
-/
import Idealize.ShloMosaic.PureOps
import Idealize.ShloMosaic.Lib.KernelVsHost
import Mathlib.Algebra.BigOperators.Fin
import Mathlib.Algebra.BigOperators.Group.Finset.Basic

namespace Idealize.ShloMosaic.SumReindex

open Idealize.ShloMosaic

variable {M : Type} [AddCommMonoid M]

/-- A shape cast lists the same entries in row-major order under another shape: the matching of the two shapes'
    multi-indices is a bijection, so the total is unchanged. -/
theorem sum_shapeCast {s t : Shape} (x : s.Idx → M) (h : s.ShapeCasts t) :
    ∑ j : t.Idx, shapeCast t x h j = ∑ k : s.Idx, x k := by
  unfold shapeCast
  exact Equiv.sum_comp (Shape.reshapeEquiv h) x

section Pad

variable {s t u : Shape} (lo hi interior : Fin s.rank → Nat)

/-- Where operand index `k` sits in the padded shape: on each axis after the low padding, `interior + 1` apart. -/
def padIdx (h : s.Pads lo hi interior t) (k : s.Idx) : t.Idx := fun b =>
  ⟨lo (b.cast h.1.symm) + (k (b.cast h.1.symm)).val * (interior (b.cast h.1.symm) + 1), by
    have e : t.size ((b.cast h.1.symm).cast h.1) = t.size b := rfl
    have hb := h.2 (b.cast h.1.symm)
    rw [e] at hb
    rw [hb]
    have hk := (k (b.cast h.1.symm)).isLt
    generalize (k (b.cast h.1.symm)).val = kv at hk ⊢
    generalize s.size (b.cast h.1.symm) = n at hk hb ⊢
    generalize interior (b.cast h.1.symm) = g
    generalize lo (b.cast h.1.symm) = l
    generalize hi (b.cast h.1.symm) = r
    obtain ⟨n', rfl⟩ : ∃ n', n = n' + 1 := ⟨n - 1, by omega⟩
    have h1 : kv * (g + 1) ≤ n' * (g + 1) := Nat.mul_le_mul_right _ (by omega)
    have h2 : n' * (g + 1) = n' + g * n' := by ring
    have h3 : n' + 1 - 1 = n' := by omega
    rw [h3]; omega⟩

theorem padIdx_val (h : s.Pads lo hi interior t) (k : s.Idx) (a : Fin s.rank) :
    (padIdx lo hi interior h k (a.cast h.1)).val = lo a + (k a).val * (interior a + 1) := rfl

theorem padIdx_injective (h : s.Pads lo hi interior t) : Function.Injective (padIdx lo hi interior h) := by
  intro k k' hk
  funext a
  have h1 := congrArg (fun f : t.Idx => (f (a.cast h.1)).val) hk
  simp only [padIdx_val] at h1
  exact Fin.ext (Nat.eq_of_mul_eq_mul_right (Nat.succ_pos _) (Nat.add_left_cancel h1))

/-- A pad by zeros keeps the sum: the operand's entries sit at distinct places of the result, and every other place
    holds the padding value, zero. -/
theorem sum_pad_zero (x : s.Idx → M) (v : u.Idx → M) (h : s.Pads lo hi interior t) (hu : 0 < u.numel)
    (hv : v (Shape.Idx.first hu) = 0) :
    ∑ j : t.Idx, pad t lo hi interior x v h hu j = ∑ k : s.Idx, x k := by
  classical
  let ι : s.Idx ↪ t.Idx := ⟨padIdx lo hi interior h, padIdx_injective lo hi interior h⟩
  have hout : ∀ j : t.Idx, j ∉ Finset.univ.map ι → pad t lo hi interior x v h hu j = 0 := by
    intro j hj
    unfold pad
    split
    · rename_i hin
      exfalso
      apply hj
      rw [Finset.mem_map]
      refine ⟨fun a => ⟨((j (a.cast h.1)).val - lo a) / (interior a + 1), (hin a).2.2⟩, Finset.mem_univ _, ?_⟩
      funext b
      apply Fin.ext
      show lo (b.cast h.1.symm) + ((j ((b.cast h.1.symm).cast h.1)).val - lo (b.cast h.1.symm)) / (interior (b.cast h.1.symm) + 1)
        * (interior (b.cast h.1.symm) + 1) = (j b).val
      have hb := hin (b.cast h.1.symm)
      have e : (j ((b.cast h.1.symm).cast h.1)).val = (j b).val := rfl
      rw [e] at hb ⊢
      rw [Nat.div_mul_cancel (Nat.dvd_of_mod_eq_zero hb.2.1)]
      omega
    · exact hv
  calc ∑ j : t.Idx, pad t lo hi interior x v h hu j
      = ∑ j ∈ Finset.univ.map ι, pad t lo hi interior x v h hu j :=
        (Finset.sum_subset (Finset.subset_univ _) fun j _ hj => hout j hj).symm
    _ = ∑ k : s.Idx, pad t lo hi interior x v h hu (ι k) := Finset.sum_map _ _ _
    _ = ∑ k : s.Idx, x k := Finset.sum_congr rfl fun k _ =>
        pad_apply_of_inside lo hi interior x v h hu (ι k) k fun a => padIdx_val lo hi interior h k a

end Pad

/-- The sum over an `[n, C]` matrix with `n = T · R` rows, block by block: `e t y` is the matrix index of entry `y`
    of row block `t` (row `t · R + y₀`, column `y₁`; the blocks are numbered through any type in bijection with
    `Fin T`), and every matrix index is exactly one such. -/
theorem sum_rowBlocks {ι : Type} [Fintype ι] (T R C n : Nat) (hn : n = T * R) (σ : ι ≃ Fin T)
    (e : ι → (⟨2, ![R, C]⟩ : Shape).Idx → (⟨2, ![n, C]⟩ : Shape).Idx)
    (h0 : ∀ t y, (e t y 0).val = (σ t).val * R + (y 0).val) (h1 : ∀ t y, (e t y 1).val = (y 1).val)
    (f : (⟨2, ![n, C]⟩ : Shape).Idx → M) :
    ∑ i, f i = ∑ t : ι, ∑ y : (⟨2, ![R, C]⟩ : Shape).Idx, f (e t y) := by
  subst hn
  rw [← Fintype.sum_prod_type' (f := fun t y => f (e t y))]
  symm
  refine Fintype.sum_bijective (fun p : ι × (⟨2, ![R, C]⟩ : Shape).Idx => e p.1 p.2) ⟨?_, ?_⟩ _ _ fun _ => rfl
  · rintro ⟨t, y⟩ ⟨t', y'⟩ hp
    have e0 : (e t y 0).val = (e t' y' 0).val := congrArg (fun g : (⟨2, ![T * R, C]⟩ : Shape).Idx => (g 0).val) hp
    have e1 : (e t y 1).val = (e t' y' 1).val := congrArg (fun g : (⟨2, ![T * R, C]⟩ : Shape).Idx => (g 1).val) hp
    rw [h0, h0] at e0
    rw [h1, h1] at e1
    have hy : (y 0).val < R := (y 0).isLt
    have hy' : (y' 0).val < R := (y' 0).isLt
    have hq : (σ t).val = (σ t').val := by
      have a1 : ((σ t).val * R + (y 0).val) / R = (σ t).val := by
        rw [Nat.mul_comm, Nat.mul_add_div (by omega), Nat.div_eq_of_lt hy, Nat.add_zero]
      have a2 : ((σ t').val * R + (y' 0).val) / R = (σ t').val := by
        rw [Nat.mul_comm, Nat.mul_add_div (by omega), Nat.div_eq_of_lt hy', Nat.add_zero]
      rw [← a1, ← a2, e0]
    have ht : t = t' := σ.injective (Fin.ext hq)
    subst ht
    have hy0 : (y 0).val = (y' 0).val := by omega
    have : y = y' := funext fun a => Fin.ext (by
      match a with
      | ⟨0, _⟩ => exact hy0
      | ⟨1, _⟩ => exact e1)
    rw [this]
  · intro i
    have hi0 : (i 0).val < T * R := (i 0).isLt
    have hi1 : (i 1).val < C := (i 1).isLt
    have hR : 0 < R := Nat.pos_of_ne_zero fun hR => by subst hR; omega
    have hq : (i 0).val / R < T := (Nat.div_lt_iff_lt_mul hR).mpr hi0
    let y : (⟨2, ![R, C]⟩ : Shape).Idx := fun a => match a with
      | ⟨0, _⟩ => ⟨(i 0).val % R, Nat.mod_lt _ hR⟩
      | ⟨1, _⟩ => ⟨(i 1).val, hi1⟩
    refine ⟨(σ.symm ⟨(i 0).val / R, hq⟩, y), funext fun a => Fin.ext ?_⟩
    match a with
    | ⟨0, _⟩ =>
      show (e (σ.symm ⟨(i 0).val / R, hq⟩) y 0).val = (i 0).val
      rw [h0, Equiv.apply_symm_apply]
      show (i 0).val / R * R + (i 0).val % R = (i 0).val
      exact Nat.div_add_mod' _ _
    | ⟨1, _⟩ =>
      show (e (σ.symm ⟨(i 0).val / R, hq⟩) y 1).val = (i 1).val
      rw [h1]
      rfl

end Idealize.ShloMosaic.SumReindex
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibRunningSum.lean ====
/-
  An accumulator that adds one term per step holds, after each step, the sum of the terms so far.

  Let `a n` be the contents after step `n` of a run of `N` steps, and `g b` the term step `b` adds. If the first step
  leaves `g 0` and every later step leaves what was there plus its own term, then `a n` is the sum of `g` over the
  steps up to `n`: by induction on `n`. Stated over any commutative additive monoid and any length `N`, so that it is
  used at a grid's size without that size ever being computed.
-/
import proofs.«109825_j67920612819495_1_alg».proof.Proof.LibPartialSum

open scoped BigOperators

namespace Cert.Lib.RunningSum

open Cert.Lib.PartialSum

variable {M : Type*} [AddCommMonoid M] {N : ℕ}

theorem eq_sum_upto (a : (n : ℕ) → n < N → M) (g : Fin N → M) (h0 : ∀ h : 0 < N, a 0 h = g ⟨0, h⟩)
    (hs : ∀ (n : ℕ) (h : n + 1 < N), a (n + 1) h = a n (Nat.lt_of_succ_lt h) + g ⟨n + 1, h⟩) :
    ∀ (n : ℕ) (h : n < N), a n h = ∑ b ∈ upto N n, g b
  | 0, h => by rw [sum_upto_zero h, h0 h]
  | n + 1, h => by rw [sum_upto_succ n h, hs n h, eq_sum_upto a g h0 hs n (Nat.lt_of_succ_lt h)]

end Cert.Lib.RunningSum
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KRegion1.lean ====
/-
  Region 1 (the statistics): the two one-row outputs stay resident over the 20 grid points; point 0 clears them and
  every point adds its block's per-channel sums of (a + b) and of (a + b)^2. After the last point they hold the sums over
  all 100000 rows.
-/
import proofs.«109825_j67920612819495_1_alg».proof.Proof.Gen.KernelIdeal.Frame
import proofs.«109825_j67920612819495_1_alg».proof.Proof.Spec
import proofs.«109825_j67920612819495_1_alg».proof.Proof.LibSumReindex
import proofs.«109825_j67920612819495_1_alg».proof.Proof.LibPartialSum
import proofs.«109825_j67920612819495_1_alg».proof.Proof.LibRunningSum
import proofs.«109825_j67920612819495_1_alg».proof.Proof.LibRowSpread
import Idealize.ShloMosaic.Lib.Pipeline.Value
import Idealize.ShloMosaic.Lib.ValueIdx
import Idealize.ShloMosaic.Lib.ValueLayout
import Idealize.ShloMosaic.PureOps.Ideal.Laws
import proofs.«109825_j67920612819495_1_alg».proof.Proof.LibERealArith
import Mathlib.Algebra.BigOperators.Fin
import Mathlib.Data.Fintype.BigOperators
import Mathlib.Data.Fin.SuccPred
import Mathlib.Logic.Equiv.Fin.Basic

set_option maxRecDepth 16384

noncomputable section

namespace Cert.KernelIdeal.Val1

open Idealize.ShloMosaic Idealize.ShloMosaic.TcCoe Idealize.ShloMosaic.ValueIdx Idealize.SL.Sem
open Cert.KernelIdeal Cert.KernelIdeal.Gen
open scoped BigOperators

/-! ## What each control case leaves in the two outputs, as the body's arithmetic on the blocks -/

section Pieces
variable {F : FTy → Type} [FloatOps F]

/-- The zero offsets of a whole-block rectangle. -/
theorem hz : (![0, 0] : Fin 2 → Nat) = fun _ => 0 := funext fun a => by fin_cases a <;> rfl

/-- A later point adds the block's column sums to what the first output held. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, h4.read_unread,
    View.ld_unit_zero (S := S5000x128) hz, View.ld_unit_zero (S := S1x128) hz]

/-- A later point adds the block's column sums of squares to what the second output held. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, h4.read_unread,
    View.ld_unit_zero (S := S5000x128) hz, View.ld_unit_zero (S := S1x128) hz]

/-- The first point stores the zero row in the first output and then adds the block's column sums to it. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

/-- The first point stores the zero row in the second output and then adds the block's column sums of squares to it. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

end Pieces

/-! ## The body's arithmetic read at an entry, over the extended reals -/

section Reads

/-- The zero word is the extended real zero. -/
theorem zero_word : Ideal.ofBits .f32 0x00000000#32 = (0 : EReal) :=
  Cert.Lib.ERealArith.ofBits_zero.trans EReal.coe_zero

/-- The row the first point stores in the first output is zero at every entry. -/
theorem pay1_apply (j : S1x128.Idx) : k1_pay1 (F := Ideal) j = (0 : EReal) := by
  unfold k1_pay1
  exact zero_word

/-- The row the first point stores in the second output is zero at every entry. -/
theorem pay2_apply (j : S1x128.Idx) : k1_pay2 (F := Ideal) j = (0 : EReal) := by
  unfold k1_pay2
  exact zero_word

/-- The biased block at row k, channel q: the block's entry plus the channel's bias. -/
theorem pay3_apply (x0 : Vec Ideal S5000x128 .f32) (x1 : Vec Ideal S1x128 .f32) (k : Fin 5000) (q : Fin 128) :
    k1_pay3 (F := Ideal) x0 x1 (ix2 k q) = x0 (ix2 k q) + x1 (ix2 (0 : Fin 1) q) := by
  unfold k1_pay3
  refine (addf_apply _ _ _).trans ?_
  refine congrArg₂ (· + ·) (congrFun (shapeCast_self x0 _) (ix2 k q)) ?_
  refine (Cert.Lib.RowSpread.spreadRows_apply _ _ k q).trans ?_
  exact congrFun (shapeCast_self x1 _) (ix2 (0 : Fin 1) q)

/-- Summing the block over its rows reads, at channel q, the sum over the 5000 rows. -/
theorem colsum_apply (y : FVec Ideal S5000x128 .f32) (hacc : (0x00000000#32 : BitVec 32) = 0x00000000#32) (q : Fin 128) :
    shapeCast S1x128 (multiReduction (F := Ideal) .add [0] S128 y 0x00000000#32 reduces_S5000x128_S128 (.inl rfl) hacc)
      shapeCasts_S128_S1x128 (ix2 (0 : Fin 1) q) = ∑ k : Fin 5000, y (ix2 k q) := by
  refine (Cert.Lib.RowSpread.asRow_apply _ _ 0 q).trans ?_
  refine (Ideal.multiReduction_add_single y 0x00000000#32 reduces_S5000x128_S128 (.inl rfl) hacc (ix1 q)).trans ?_
  refine Finset.sum_congr rfl fun k _ => congrArg y ?_
  funext a
  match a with
  | ⟨0, _⟩ => rfl
  | ⟨1, _⟩ => rfl

/-- The first output's update at channel q: what it held plus the block's biased column sum. -/
theorem pay4_apply (x0 : Vec Ideal S5000x128 .f32) (x1 acc : Vec Ideal S1x128 .f32) (q : Fin 128) :
    k1_pay4 (F := Ideal) x0 x1 acc (ix2 (0 : Fin 1) q)
      = acc (ix2 (0 : Fin 1) q) + ∑ k : Fin 5000, (x0 (ix2 k q) + x1 (ix2 (0 : Fin 1) q)) := by
  unfold k1_pay4
  refine (addf_apply _ _ _).trans ?_
  refine congrArg₂ (· + ·) (congrFun (shapeCast_self acc _) (ix2 (0 : Fin 1) q)) ?_
  refine (colsum_apply (k1_pay3 (F := Ideal) x0 x1) rfl q).trans ?_
  exact Finset.sum_congr rfl fun k _ => pay3_apply x0 x1 k q

/-- The second output's update at channel q: what it held plus the block's column sum of squared biased entries. -/
theorem pay5_apply (x0 : Vec Ideal S5000x128 .f32) (x1 acc : Vec Ideal S1x128 .f32) (q : Fin 128) :
    k1_pay5 (F := Ideal) x0 x1 acc (ix2 (0 : Fin 1) q)
      = acc (ix2 (0 : Fin 1) q)
        + ∑ k : Fin 5000, (x0 (ix2 k q) + x1 (ix2 (0 : Fin 1) q)) * (x0 (ix2 k q) + x1 (ix2 (0 : Fin 1) q)) := by
  unfold k1_pay5
  refine (addf_apply _ _ _).trans ?_
  refine congrArg₂ (· + ·) (congrFun (shapeCast_self acc _) (ix2 (0 : Fin 1) q)) ?_
  refine (colsum_apply (mulf (k1_pay3 (F := Ideal) x0 x1) (k1_pay3 (F := Ideal) x0 x1)) rfl q).trans ?_
  refine Finset.sum_congr rfl fun k _ => ?_
  refine (mulf_apply _ _ _).trans ?_
  exact congrArg₂ (· * ·) (pay3_apply x0 x1 k q) (pay3_apply x0 x1 k q)

end Reads

/-! ## The windows' blocks as parts of the two input arrays -/

section Blocks

variable (V : (c : Dev nD) → (b : Ref sig .tc) → Buf (Elt Ideal) ((c : Thread nD τ).loc b))

/-- The block of 5000 rows the first window brings at point t. -/
abbrev xblk (c : Dev nD) (t : Fin cfg1.N) : Vec Ideal S5000x128 .f32 := iblk1 (F := Ideal) V c 0 t
/-- The bias row as the second window brings it at point t. -/
abbrev bblk (c : Dev nD) (t : Fin cfg1.N) : Vec Ideal S1x128 .f32 := iblk1 (F := Ideal) V c 1 t
/-- The whole input array. -/
abbrev xarr (c : Dev nD) : Vec Ideal S100000x128 .f32 := V c main_v44
/-- The whole bias row. -/
abbrev barr (c : Dev nD) : Vec Ideal S1x128 .f32 := V c main_v45

/-- Where the first window's block sits at point t: block row t, block column 0. -/
theorem idx0 : ∀ t : Fin cfg1.N, win1_0.index t 0 = t.val ∧ win1_0.index t 1 = 0 :=
  (by decide +kernel : ∀ t : Fin grid1.N, win1_0.index t 0 = t.val ∧ win1_0.index t 1 = 0)
/-- The second window's block is the whole bias row at every point. -/
theorem idx1 : ∀ t : Fin cfg1.N, win1_1.index t 0 = 0 ∧ win1_1.index t 1 = 0 :=
  (by decide +kernel : ∀ t : Fin grid1.N, win1_1.index t 0 = 0 ∧ win1_1.index t 1 = 0)

/-- Entry (k, q) of the block at point t is entry (5000 t + k, q) of the array. -/
theorem xblk_apply (c : Dev nD) (t : Fin cfg1.N) (k : Fin 5000) (q : Fin 128) (hr : 5000 * t.val + k.val < 100000) :
    xblk V c t (ix2 k q) = xarr V c (ix2 (⟨5000 * t.val + k.val, hr⟩ : Fin 100000) q) := by
  unfold xblk iblk1
  rw [View.read_apply]
  show V c main_v44 _ = V c main_v44 _
  congr 1
  funext a
  apply Fin.ext
  match a with
  | ⟨0, _⟩ =>
    show win1_0.index t 0 * 5000 + 1 * k.val = 5000 * t.val + k.val
    rw [(idx0 t).1]; omega
  | ⟨1, _⟩ =>
    show win1_0.index t 1 * 128 + 1 * q.val = q.val
    rw [(idx0 t).2]; omega

/-- Entry (0, q) of the bias row the window brings is entry (0, q) of the bias row. -/
theorem bblk_apply (c : Dev nD) (t : Fin cfg1.N) (q : Fin 128) :
    bblk V c t (ix2 (0 : Fin 1) q) = barr V c (ix2 (0 : Fin 1) q) := by
  unfold bblk iblk1
  rw [View.read_apply]
  show V c main_v45 _ = V c main_v45 _
  congr 1
  funext a
  apply Fin.ext
  match a with
  | ⟨0, _⟩ =>
    show win1_1.index t 0 * 1 + 1 * 0 = 0
    rw [(idx1 t).1]
  | ⟨1, _⟩ =>
    show win1_1.index t 1 * 128 + 1 * q.val = q.val
    rw [(idx1 t).2]; omega

end Blocks

/-! ## The two outputs after each point: the sums over the blocks so far -/

section Invariant

open Cert.Lib.PartialSum Cert.Lib.RunningSum

variable (V : (c : Dev nD) → (b : Ref sig .tc) → Buf (Elt Ideal) ((c : Thread nD τ).loc b))

/-- What point b adds to channel q of the first output: its block's biased column sum. -/
def term2 (c : Dev nD) (q : Fin 128) (b : Fin cfg1.N) : EReal :=
  ∑ k : Fin 5000, (xblk V c b (ix2 k q) + bblk V c b (ix2 (0 : Fin 1) q))

/-- What point b adds to channel q of the second output: its block's column sum of squared biased entries. -/
def term3 (c : Dev nD) (q : Fin 128) (b : Fin cfg1.N) : EReal :=
  ∑ k : Fin 5000, (xblk V c b (ix2 k q) + bblk V c b (ix2 (0 : Fin 1) q))
    * (xblk V c b (ix2 k q) + bblk V c b (ix2 (0 : Fin 1) q))

/-- At the first point the first output is left at that point's term: zero plus it. -/
theorem first2 (c : Dev nD) (q : Fin 128) (t : Fin cfg1.N) (h0 : t.val % 20 = 0) :
    (outsAt1 (F := Ideal) V c t.val t.isLt).1 (ix2 (0 : Fin 1) q) = term2 V c q t := by
  rw [outsAt1_A V c t h0]
  dsimp only
  refine (congrFun (out_A_2 (F := Ideal) c (grid1.coords t) (ms1_0 t) (hs1_0 t) (ms1_1 t) (hs1_1 t) (ms1_2 t) (hs1_2 t)
    (ms1_3 t) (hs1_3 t) ((hcond1_0 t).mpr h0) (xblk V c t) (bblk V c t)) (ix2 (0 : Fin 1) q)).trans ?_
  refine (pay4_apply (xblk V c t) (bblk V c t) (k1_pay1 (F := Ideal)) q).trans ?_
  rw [pay1_apply, zero_add]
  rfl

/-- At the first point the second output is left at that point's term: zero plus it. -/
theorem first3 (c : Dev nD) (q : Fin 128) (t : Fin cfg1.N) (h0 : t.val % 20 = 0) :
    (outsAt1 (F := Ideal) V c t.val t.isLt).2 (ix2 (0 : Fin 1) q) = term3 V c q t := by
  rw [outsAt1_A V c t h0]
  dsimp only
  refine (congrFun (out_A_3 (F := Ideal) c (grid1.coords t) (ms1_0 t) (hs1_0 t) (ms1_1 t) (hs1_1 t) (ms1_2 t) (hs1_2 t)
    (ms1_3 t) (hs1_3 t) ((hcond1_0 t).mpr h0) (xblk V c t) (bblk V c t)) (ix2 (0 : Fin 1) q)).trans ?_
  refine (pay5_apply (xblk V c t) (bblk V c t) (k1_pay2 (F := Ideal)) q).trans ?_
  rw [pay2_apply, zero_add]
  rfl

/-- At a later point the first output is what the point before left plus this point's term. -/
theorem step2 (c : Dev nD) (q : Fin 128) (t : Fin cfg1.N) (h0 : ¬t.val % 20 = 0) :
    (outsAt1 (F := Ideal) V c t.val t.isLt).1 (ix2 (0 : Fin 1) q)
      = (outsAt1 (F := Ideal) V c (t.val - 1) (Nat.lt_of_le_of_lt (Nat.sub_le _ _) t.isLt)).1 (ix2 (0 : Fin 1) q)
        + term2 V c q t := by
  rw [outsAt1_B V c t h0]
  dsimp only
  refine (congrFun (out_B_2 (F := Ideal) c (grid1.coords t) (ms1_0 t) (hs1_0 t) (ms1_1 t) (hs1_1 t) (ms1_2 t) (hs1_2 t)
    (ms1_3 t) (hs1_3 t) (fun h => h0 ((hcond1_0 t).mp h)) (xblk V c t) (bblk V c t)
    (outsAt1 (F := Ideal) V c (t.val - 1) (Nat.lt_of_le_of_lt (Nat.sub_le _ _) t.isLt)).1
    (outsAt1 (F := Ideal) V c (t.val - 1) (Nat.lt_of_le_of_lt (Nat.sub_le _ _) t.isLt)).2) (ix2 (0 : Fin 1) q)).trans ?_
  exact pay4_apply (xblk V c t) (bblk V c t)
    (outsAt1 (F := Ideal) V c (t.val - 1) (Nat.lt_of_le_of_lt (Nat.sub_le _ _) t.isLt)).1 q

/-- At a later point the second output is what the point before left plus this point's term. -/
theorem step3 (c : Dev nD) (q : Fin 128) (t : Fin cfg1.N) (h0 : ¬t.val % 20 = 0) :
    (outsAt1 (F := Ideal) V c t.val t.isLt).2 (ix2 (0 : Fin 1) q)
      = (outsAt1 (F := Ideal) V c (t.val - 1) (Nat.lt_of_le_of_lt (Nat.sub_le _ _) t.isLt)).2 (ix2 (0 : Fin 1) q)
        + term3 V c q t := by
  rw [outsAt1_B V c t h0]
  dsimp only
  refine (congrFun (out_B_3 (F := Ideal) c (grid1.coords t) (ms1_0 t) (hs1_0 t) (ms1_1 t) (hs1_1 t) (ms1_2 t) (hs1_2 t)
    (ms1_3 t) (hs1_3 t) (fun h => h0 ((hcond1_0 t).mp h)) (xblk V c t) (bblk V c t)
    (outsAt1 (F := Ideal) V c (t.val - 1) (Nat.lt_of_le_of_lt (Nat.sub_le _ _) t.isLt)).1
    (outsAt1 (F := Ideal) V c (t.val - 1) (Nat.lt_of_le_of_lt (Nat.sub_le _ _) t.isLt)).2) (ix2 (0 : Fin 1) q)).trans ?_
  exact pay5_apply (xblk V c t) (bblk V c t)
    (outsAt1 (F := Ideal) V c (t.val - 1) (Nat.lt_of_le_of_lt (Nat.sub_le _ _) t.isLt)).2 q

/-- A point after the first is not a multiple of 20: there are only 20 points. -/
theorem succ_not_first (n : ℕ) (h : n + 1 < cfg1.N) : ¬(⟨n + 1, h⟩ : Fin cfg1.N).val % 20 = 0 := by
  have hN : n + 1 < 20 := lt_of_lt_of_eq h (show cfg1.N = 20 from N_1)
  show ¬(n + 1) % 20 = 0
  omega

/-- After point n, channel q of the first output holds the sum of the terms of the points up to n. -/
theorem acc2 (c : Dev nD) (q : Fin 128) : ∀ (n : ℕ) (h : n < cfg1.N),
    (outsAt1 (F := Ideal) V c n h).1 (ix2 (0 : Fin 1) q) = ∑ b ∈ upto cfg1.N n, term2 V c q b :=
  eq_sum_upto (fun n h => ((outsAt1 (F := Ideal) V c n h).1 (ix2 (0 : Fin 1) q) : EReal)) (term2 V c q)
    (fun h => first2 V c q ⟨0, h⟩ (Nat.zero_mod 20))
    (fun n h => step2 V c q ⟨n + 1, h⟩ (succ_not_first n h))

/-- After point n, channel q of the second output holds the sum of the terms of the points up to n. -/
theorem acc3 (c : Dev nD) (q : Fin 128) : ∀ (n : ℕ) (h : n < cfg1.N),
    (outsAt1 (F := Ideal) V c n h).2 (ix2 (0 : Fin 1) q) = ∑ b ∈ upto cfg1.N n, term3 V c q b :=
  eq_sum_upto (fun n h => ((outsAt1 (F := Ideal) V c n h).2 (ix2 (0 : Fin 1) q) : EReal)) (term3 V c q)
    (fun h => first3 V c q ⟨0, h⟩ (Nat.zero_mod 20))
    (fun n h => step3 V c q ⟨n + 1, h⟩ (succ_not_first n h))

end Invariant

/-! ## After the last point: the sums over all 100000 rows, written back once -/

section Final

open Cert.Lib.PartialSum

variable (V : (c : Dev nD) → (b : Ref sig .tc) → Buf (Elt Ideal) ((c : Thread nD τ).loc b))

/-- Row k of block b is a row of the array. -/
theorem row_lt (b : Fin cfg1.N) (k : Fin 5000) : 5000 * b.val + k.val < 100000 := by
  have hb : b.val < 20 := lt_of_lt_of_eq b.isLt (show cfg1.N = 20 from N_1)
  have hk : k.val < 5000 := k.isLt
  omega

/-- A sum over the 100000 rows is the sum, over the 20 blocks, of the sums over each block's 5000 rows. -/
theorem sum_blocks (g : Fin 100000 → EReal) :
    ∑ n : Fin 100000, g n = ∑ b : Fin cfg1.N, ∑ k : Fin 5000, g ⟨5000 * b.val + k.val, row_lt b k⟩ := by
  rw [← Fintype.sum_prod_type' (fun (b : Fin cfg1.N) (k : Fin 5000) => g ⟨5000 * b.val + k.val, row_lt b k⟩)]
  symm
  refine Fintype.sum_equiv
    (((finCongr (show cfg1.N = 20 from N_1)).prodCongr (Equiv.refl (Fin 5000))).trans (finProdFinEquiv (m := 20) (n := 5000)))
    _ _ fun p => congrArg g (Fin.ext ?_)
  show 5000 * p.1.val + p.2.val = p.2.val + 5000 * p.1.val
  omega

/-- Over all points the first output's terms add up to the channel's sum of biased entries. -/
theorem total2 (c : Dev nD) (q : Fin 128) :
    ∑ b : Fin cfg1.N, term2 V c q b = ∑ n : Fin 100000, Cert.Spec.biased (xarr V c) (barr V c) n q := by
  rw [sum_blocks]
  refine Finset.sum_congr rfl fun b _ => Finset.sum_congr rfl fun k _ => ?_
  unfold Cert.Spec.biased
  rw [xblk_apply V c b k q (row_lt b k), bblk_apply V c b q]

/-- Over all points the second output's terms add up to the channel's sum of squared biased entries. -/
theorem total3 (c : Dev nD) (q : Fin 128) :
    ∑ b : Fin cfg1.N, term3 V c q b
      = ∑ n : Fin 100000, Cert.Spec.biased (xarr V c) (barr V c) n q * Cert.Spec.biased (xarr V c) (barr V c) n q := by
  rw [sum_blocks]
  refine Finset.sum_congr rfl fun b _ => Finset.sum_congr rfl fun k _ => ?_
  unfold Cert.Spec.biased
  rw [xblk_apply V c b k q (row_lt b k), bblk_apply V c b q]

/-- The last point. -/
abbrev tLast : Fin cfg1.N := ⟨19, lt_of_lt_of_eq (by decide : 19 < 20) (show (20 : ℕ) = cfg1.N from N_1.symm)⟩

/-- An index of a one-row matrix is (0, its column). -/
theorem eq_row (j : S1x128.Idx) : j = ix2 (0 : Fin 1) (j 1) := by
  have h : (j 0 : Fin 1) = (0 : Fin 1) := Fin.ext (Nat.lt_one_iff.mp (idx2_lt0 j))
  exact (eq_ix2 j).trans (congrArg (fun z : Fin 1 => ix2 z (j 1)) h)

/-- After the last point the first output holds the channels' sums of biased entries. -/
theorem last2 (c : Dev nD) :
    (outsAt1 (F := Ideal) V c tLast.val tLast.isLt).1
      = (Cert.Spec.sumRow (V c main_v44) (V c main_v45) : S1x128.Idx → EReal) := by
  funext j
  rw [eq_row j]
  refine (acc2 V c (j 1) 19 tLast.isLt).trans ?_
  rw [sum_upto_last 19 (le_of_eq (show cfg1.N = 20 from N_1))]
  exact total2 V c (j 1)

/-- After the last point the second output holds the channels' sums of squared biased entries. -/
theorem last3 (c : Dev nD) :
    (outsAt1 (F := Ideal) V c tLast.val tLast.isLt).2
      = (Cert.Spec.sumSqRow (V c main_v44) (V c main_v45) : S1x128.Idx → EReal) := by
  funext j
  rw [eq_row j]
  refine (acc3 V c (j 1) 19 tLast.isLt).trans ?_
  rw [sum_upto_last 19 (le_of_eq (show cfg1.N = 20 from N_1))]
  exact total3 V c (j 1)

end Final

/-! ## The write-back: only the last point flushes, and its block is the whole row -/

section Flush

variable (V : (c : Dev nD) → (b : Ref sig .tc) → Buf (Elt Ideal) ((c : Thread nD τ).loc b))

/-- The one write-back of the first output writes the row the last point left. -/
theorem flushed2 (c : Dev nD) (G : Buf (Elt Ideal) ((c : Thread nD τ).loc main_v46_0))
    (hG : (outsAt1 (F := Ideal) V c tLast.val tLast.isLt).1 = G) (t : Fin cfg1.N) (hf : (cfg1.win 2).flush t = true) :
    (dat1 (F := Ideal) V c).flushed 2 t = ((cfg1.win 2).blk t).view.read (Elt Ideal) G := by
  have hN : cfg1.N = 20 := N_1
  have h19 : t.val = 19 := by have := (flush1_2 t).mp hf; have := t.isLt; omega
  obtain rfl : t = tLast := Fin.ext h19
  show (cfg1.win 2).cut (grid1.coords tLast) ((dat1 (F := Ideal) V c).after 2 tLast) = _
  rw [after1_2, hG]
  have hz' : (fun a => win1_2.index tLast a * main_v46_0.ty.shape.size a) = fun _ => 0 :=
    funext fun a => by fin_cases a <;> decide +kernel
  exact (Memref.read_access_unit_zero (Elt Ideal) main_v46_0 hz' (fun a => by rw [congrFun hz' a]; simp) G).symm

/-- The one write-back of the second output writes the row the last point left. -/
theorem flushed3 (c : Dev nD) (G : Buf (Elt Ideal) ((c : Thread nD τ).loc main_v46_1))
    (hG : (outsAt1 (F := Ideal) V c tLast.val tLast.isLt).2 = G) (t : Fin cfg1.N) (hf : (cfg1.win 3).flush t = true) :
    (dat1 (F := Ideal) V c).flushed 3 t = ((cfg1.win 3).blk t).view.read (Elt Ideal) G := by
  have hN : cfg1.N = 20 := N_1
  have h19 : t.val = 19 := by have := (flush1_3 t).mp hf; have := t.isLt; omega
  obtain rfl : t = tLast := Fin.ext h19
  show (cfg1.win 3).cut (grid1.coords tLast) ((dat1 (F := Ideal) V c).after 3 tLast) = _
  rw [after1_3, hG]
  have hz' : (fun a => win1_3.index tLast a * main_v46_1.ty.shape.size a) = fun _ => 0 :=
    funext fun a => by fin_cases a <;> decide +kernel
  exact (Memref.read_access_unit_zero (Elt Ideal) main_v46_1 hz' (fun a => by rw [congrFun hz' a]; simp) G).symm

/-- Every entry of the first output's array is in the last point's block. -/
theorem cover2 (c : Dev nD) (i : ((cfg1.win 2).arr.view.loc ((c : Thread nD τ))).2.ty.Idx) :
    ∃ t : Fin cfg1.N, (cfg1.win 2).flush t = true ∧ i ∈ ((cfg1.win 2).blk t).view.set := by
  refine ⟨tLast, (flush1_2 tLast).mpr rfl, ?_⟩
  show i ∈ ((View.whole main_v46_0).slice (win1_2.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win1_2.index tLast 0 * win1_2.size 0 ≤ (i 0 : Nat)
      ∧ (i 0 : Nat) < win1_2.index tLast 0 * win1_2.size 0 + win1_2.xsize (grid1.coords tLast) 0
    rw [show win1_2.index tLast 0 * win1_2.size 0 = 0 from by decide +kernel,
      show win1_2.xsize (grid1.coords tLast) 0 = 1 from by decide +kernel]
    omega
  | ⟨1, _⟩ =>
    show win1_2.index tLast 1 * win1_2.size 1 ≤ (i 1 : Nat)
      ∧ (i 1 : Nat) < win1_2.index tLast 1 * win1_2.size 1 + win1_2.xsize (grid1.coords tLast) 1
    rw [show win1_2.index tLast 1 * win1_2.size 1 = 0 from by decide +kernel,
      show win1_2.xsize (grid1.coords tLast) 1 = 128 from by decide +kernel]
    omega

/-- Every entry of the second output's array is in the last point's block. -/
theorem cover3 (c : Dev nD) (i : ((cfg1.win 3).arr.view.loc ((c : Thread nD τ))).2.ty.Idx) :
    ∃ t : Fin cfg1.N, (cfg1.win 3).flush t = true ∧ i ∈ ((cfg1.win 3).blk t).view.set := by
  refine ⟨tLast, (flush1_3 tLast).mpr rfl, ?_⟩
  show i ∈ ((View.whole main_v46_1).slice (win1_3.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win1_3.index tLast 0 * win1_3.size 0 ≤ (i 0 : Nat)
      ∧ (i 0 : Nat) < win1_3.index tLast 0 * win1_3.size 0 + win1_3.xsize (grid1.coords tLast) 0
    rw [show win1_3.index tLast 0 * win1_3.size 0 = 0 from by decide +kernel,
      show win1_3.xsize (grid1.coords tLast) 0 = 1 from by decide +kernel]
    omega
  | ⟨1, _⟩ =>
    show win1_3.index tLast 1 * win1_3.size 1 ≤ (i 1 : Nat)
      ∧ (i 1 : Nat) < win1_3.index tLast 1 * win1_3.size 1 + win1_3.xsize (grid1.coords tLast) 1
    rw [show win1_3.index tLast 1 * win1_3.size 1 = 0 from by decide +kernel,
      show win1_3.xsize (grid1.coords tLast) 1 = 128 from by decide +kernel]
    omega

end Flush

variable (V : (c : Dev nD) → (b : Ref sig .tc) → Buf (Elt Ideal) ((c : Thread nD τ).loc b))

/-- After region 1 its first output array holds, per channel, the sum over all rows of the biased entries. -/
theorem arr_sum (c : Dev nD) :
    (dat1 (F := Ideal) V c).arrAt 2 cfg1.N
      = (Cert.Spec.sumRow (V c main_v44) (V c main_v45) : S1x128.Idx → EReal) :=
  (dat1 (F := Ideal) V c).arrAt_eq_of_cover 2 (Cert.Spec.sumRow (V c main_v44) (V c main_v45))
    (flushed2 V c (Cert.Spec.sumRow (V c main_v44) (V c main_v45)) (last2 V c)) (cover2 c)

/-- After region 1 its second output array holds, per channel, the sum over all rows of the squared biased entries. -/
theorem arr_sumsq (c : Dev nD) :
    (dat1 (F := Ideal) V c).arrAt 3 cfg1.N
      = (Cert.Spec.sumSqRow (V c main_v44) (V c main_v45) : S1x128.Idx → EReal) :=
  (dat1 (F := Ideal) V c).arrAt_eq_of_cover 3 (Cert.Spec.sumSqRow (V c main_v44) (V c main_v45))
    (flushed3 V c (Cert.Spec.sumSqRow (V c main_v44) (V c main_v45)) (last3 V c)) (cover3 c)

end Cert.KernelIdeal.Val1

end
-- ==== Proof.KRegion2.lean ====
/-
  Region 2 (the epilogue): pointwise on each 5000-row block, with the five one-row operands resident; the array it
  leaves is the epilogue of the whole arrays.
-/
import proofs.«109825_j67920612819495_1_alg».proof.Proof.Gen.KernelIdeal.Frame
import proofs.«109825_j67920612819495_1_alg».proof.Proof.Spec
import proofs.«109825_j67920612819495_1_alg».proof.Proof.LibRowSpread
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Idealize.ShloMosaic Idealize.ShloMosaic.TcCoe Idealize.ShloMosaic.ValueIdx Idealize.SL.Sem
open Cert.KernelIdeal Cert.KernelIdeal.Gen
open scoped BigOperators

/-- The reciprocal square root of a vector, at an index, is that of the entry. -/
private theorem rsqrt_at {s : Shape} {φ : FTy} (a : FVec Ideal s φ) (i : s.Idx) : rsqrt a i = Ideal.rsqrt (a i) := rfl

/-- The payload of the block's one store, read at row p and column q of the block. -/
private theorem payload_apply (x0 : Vec Ideal S5000x128 .f32) (b vr mn g be : Vec Ideal S1x128 .f32) (x6 : Vec Ideal S5000x128 .f32)
    (p : Fin 5000) (q : Fin 128) :
    k2_pay1 (F := Ideal) x0 b vr mn g be x6 (ix2 p q)
      = max (((x0 (ix2 p q) + b (ix2 (0 : Fin 1) q)) - mn (ix2 (0 : Fin 1) q))
            * Ideal.rsqrt (vr (ix2 (0 : Fin 1) q) + Cert.Spec.cEps) * g (ix2 (0 : Fin 1) q) + be (ix2 (0 : Fin 1) q)) Cert.Spec.cZero
          + x6 (ix2 p q) := by
  unfold k2_pay1
  simp only [shapeCast_self]
  rw [addf_apply, maximumf_apply, addf_apply, mulf_apply, mulf_apply, subf_apply, addf_apply]
  simp only [Cert.Lib.RowSpread.spreadRows_apply]
  rw [rsqrt_at, addf_apply, broadcast_apply, broadcast_apply]
  rfl

/-- With every operand block reading its array where the output block's rectangle says — the two row-block operands at
    row r p, the five one-row operands whole — the payload at (p, q) is the epilogue at (r p, q). -/
private theorem payload_eq_epilogue (x0 x6 : Vec Ideal S5000x128 .f32) (b vr mn g be : Vec Ideal S1x128 .f32)
    (A X : S100000x128.Idx → EReal) (B M Vr Gm Be : S1x128.Idx → EReal) (r : Fin 5000 → Fin 100000)
    (h0 : ∀ p q, x0 (ix2 p q) = A (ix2 (r p) q)) (h6 : ∀ p q, x6 (ix2 p q) = X (ix2 (r p) q))
    (hb : ∀ q : Fin 128, b (ix2 (0 : Fin 1) q) = B (ix2 (0 : Fin 1) q))
    (hm : ∀ q : Fin 128, mn (ix2 (0 : Fin 1) q) = M (ix2 (0 : Fin 1) q))
    (hv : ∀ q : Fin 128, vr (ix2 (0 : Fin 1) q) = Vr (ix2 (0 : Fin 1) q))
    (hg : ∀ q : Fin 128, g (ix2 (0 : Fin 1) q) = Gm (ix2 (0 : Fin 1) q))
    (hbe : ∀ q : Fin 128, be (ix2 (0 : Fin 1) q) = Be (ix2 (0 : Fin 1) q))
    (j : S5000x128.Idx) :
    k2_pay1 (F := Ideal) x0 b vr mn g be x6 j = Cert.Spec.epilogue A B M Vr Gm Be X (ix2 (r (j 0)) (j 1)) := by
  obtain ⟨p, q, rfl⟩ : ∃ (p : Fin 5000) (q : Fin 128), j = ix2 p q := ⟨j 0, j 1, eq_ix2 j⟩
  rw [payload_apply, h0, h6, hb, hm, hv, hg, hbe]
  rfl

variable (V : (c : Dev nD) → (b : Ref sig .tc) → Buf (Elt Ideal) ((c : Thread nD τ).loc b))

private theorem zero_offsets : (![0, 0] : Fin 2 → Nat) = fun _ => 0 :=
  funext fun a => by match a with | ⟨0, _⟩ => rfl | ⟨1, _⟩ => rfl

/-- The printed index maps over the grid: the row-block windows sit at block t, the one-row windows at block 0. -/
private theorem block_indices : ∀ t : Fin cfg2.N,
    win2_7.index t (0 : Fin 2) = t.val ∧ win2_7.index t (1 : Fin 2) = 0
    ∧ win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

private theorem point_lt (t : Fin cfg2.N) : t.val < 20 := lt_of_lt_of_eq t.isLt N_2

/-- Row p of block t is row 5000 t + p of the array. -/
private def rowOf (t : Fin cfg2.N) (p : Fin 5000) : Fin 100000 :=
  ⟨t.val * 5000 + p.val, by have := point_lt t; have := p.isLt; omega⟩

/-- What point t writes back is block t of the epilogue of the arrays as the region finds them. -/
private theorem written_back_eq (c : Dev nD) (t : Fin cfg2.N) :
    (dat2 (F := Ideal) V c).flushed 7 t = ((cfg2.win 7).blk t).view.read (Elt Ideal)
      (Cert.Spec.epilogue (V c main_v44) (V c main_v53) (V c main_v48) (V c main_v52) (V c main_v54) (V c main_v55)
          (V c main_arg0) : S100000x128.Idx → EReal) := by
  show (cfg2.win 7).cut (grid2.coords t) ((dat2 V c).after 7 t) = _
  rw [after2_7]
  unfold out2_7
  rw [View.canon_unit_zero zero_offsets]
  simp only [View.ld_unit_zero (S := S5000x128) zero_offsets, View.ld_unit_zero (S := S1x128) zero_offsets]
  funext j
  obtain ⟨e70, e71, e00, e01, e60, e61, e10, e11, e20, e21, e30, e31, e40, e41, e50, e51⟩ := block_indices t
  show k2_pay1 (F := Ideal) (iblk2 V c 0 t) (iblk2 V c 1 t) (iblk2 V c 3 t) (iblk2 V c 2 t) (iblk2 V c 4 t) (iblk2 V c 5 t)
        (iblk2 V c 6 t) j
      = Cert.Spec.epilogue (V c main_v44) (V c main_v53) (V c main_v48) (V c main_v52) (V c main_v54) (V c main_v55)
          (V c main_arg0) (((cfg2.win 7).blk t).view.emb j)
  have h7 : ((cfg2.win 7).blk t).view.emb j = ix2 (rowOf t (j 0)) (j 1) := by
    funext a; apply Fin.ext
    match a with
    | ⟨0, _⟩ => show win2_7.index t (0 : Fin 2) * 5000 + 1 * (j 0).val = t.val * 5000 + (j 0).val; omega
    | ⟨1, _⟩ => show win2_7.index t (1 : Fin 2) * 128 + 1 * (j 1).val = (j 1).val; omega
  rw [h7]
  have h0 : ∀ (p : Fin 5000) (q : Fin 128),
      (iblk2 V c 0 t : Vec Ideal S5000x128 .f32) (ix2 p q) = V c main_v44 (ix2 (rowOf t p) q) := by
    intro p q
    show V c main_v44 (((cfg2.win 0).blk t).view.emb (ix2 p q)) = V c main_v44 (ix2 (rowOf t p) q)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  have h6 : ∀ (p : Fin 5000) (q : Fin 128),
      (iblk2 V c 6 t : Vec Ideal S5000x128 .f32) (ix2 p q) = V c main_arg0 (ix2 (rowOf t p) q) := by
    intro p q
    show V c main_arg0 (((cfg2.win 6).blk t).view.emb (ix2 p q)) = V c main_arg0 (ix2 (rowOf t p) q)
    refine congrArg _ (funext fun a => Fin.ext ?_)
    match a with
    | ⟨0, _⟩ => show win2_6.index t (0 : Fin 2) * 5000 + 1 * p.val = t.val * 5000 + p.val; omega
    | ⟨1, _⟩ => show win2_6.index t (1 : Fin 2) * 128 + 1 * q.val = q.val; omega
  have h1 : ∀ q : Fin 128,
      (iblk2 V c 1 t : Vec Ideal S1x128 .f32) (ix2 (0 : Fin 1) q) = V c main_v53 (ix2 (0 : Fin 1) q) := by
    intro q
    show V c main_v53 (((cfg2.win 1).blk t).view.emb (ix2 (0 : Fin 1) q)) = V c main_v53 (ix2 (0 : Fin 1) q)
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  have h2 : ∀ q : Fin 128,
      (iblk2 V c 2 t : Vec Ideal S1x128 .f32) (ix2 (0 : Fin 1) q) = V c main_v48 (ix2 (0 : Fin 1) q) := by
    intro q
    show V c main_v48 (((cfg2.win 2).blk t).view.emb (ix2 (0 : Fin 1) q)) = V c main_v48 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have h3 : ∀ q : Fin 128,
      (iblk2 V c 3 t : Vec Ideal S1x128 .f32) (ix2 (0 : Fin 1) q) = V c main_v52 (ix2 (0 : Fin 1) q) := by
    intro q
    show V c main_v52 (((cfg2.win 3).blk t).view.emb (ix2 (0 : Fin 1) q)) = V c main_v52 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  have h4 : ∀ q : Fin 128,
      (iblk2 V c 4 t : Vec Ideal S1x128 .f32) (ix2 (0 : Fin 1) q) = V c main_v54 (ix2 (0 : Fin 1) q) := by
    intro q
    show V c main_v54 (((cfg2.win 4).blk t).view.emb (ix2 (0 : Fin 1) q)) = V c main_v54 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  have h5 : ∀ q : Fin 128,
      (iblk2 V c 5 t : Vec Ideal S1x128 .f32) (ix2 (0 : Fin 1) q) = V c main_v55 (ix2 (0 : Fin 1) q) := by
    intro q
    show V c main_v55 (((cfg2.win 5).blk t).view.emb (ix2 (0 : Fin 1) q)) = V c main_v55 (ix2 (0 : Fin 1) q)
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  exact payload_eq_epilogue (iblk2 V c 0 t) (iblk2 V c 6 t) (iblk2 V c 1 t) (iblk2 V c 3 t) (iblk2 V c 2 t) (iblk2 V c 4 t)
    (iblk2 V c 5 t) (V c main_v44) (V c main_arg0) (V c main_v53) (V c main_v48) (V c main_v52) (V c main_v54)
    (V c main_v55) (rowOf t) h0 h6 h1 h2 h3 h4 h5 j

/-- An index of the array is in point t's block iff each coordinate is in the block's range on its axis. -/
private theorem mem_block_iff (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v56).slice (win2_7.rect t)).set ↔ _
  rw [View.set_slice_whole, Rect.mem_set_unit]
  exact Iff.rfl

/-- Row r of the array lies in the block of point r / 5000, and every point writes its block back. -/
private theorem rows_covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e70, e71, -⟩ := block_indices t
  refine ⟨t, flush2_7 t, ?_⟩
  rw [mem_block_iff]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-- After region 2 its output array holds the epilogue of its seven operand arrays. -/
theorem arr_out (c : Dev nD) :
    (dat2 (F := Ideal) V c).arrAt 7 cfg2.N
      = (Cert.Spec.epilogue (V c main_v44) (V c main_v53) (V c main_v48) (V c main_v52) (V c main_v54) (V c main_v55)
          (V c main_arg0) : S100000x128.Idx → EReal) :=
  (dat2 (F := Ideal) V c).arrAt_eq_of_cover 7 _ (fun t _ => written_back_eq V c t) rows_covered

end Cert.KernelIdeal.Val2

end
-- ==== Proof.KValue.lean ====
/-
  The kernel program's result buffer after the run, as a function of the launch contents of the six arguments: the
  boundary lemmas of the host stretches composed with what each region leaves in its output arrays.
-/
import proofs.«109825_j67920612819495_1_alg».proof.Proof.KHost
import proofs.«109825_j67920612819495_1_alg».proof.Proof.KRegion0
import proofs.«109825_j67920612819495_1_alg».proof.Proof.KRegion1
import proofs.«109825_j67920612819495_1_alg».proof.Proof.KRegion2

set_option maxRecDepth 16384

noncomputable section

namespace Cert.KernelIdeal.KValue

open Idealize.ShloMosaic Idealize.ShloMosaic.TcCoe Idealize.SL.Sem
open Cert.KernelIdeal Cert.KernelIdeal.Gen Cert.KernelIdeal.KChain Cert.KernelIdeal.KHost

variable (m : (ℓ : Loc nD τ sig) → Buf (Elt Ideal) ℓ) (ρ : Dev nD → PrngReg)

/-- Region 0 leaves the product of the features by the transposed weights in its output array. -/
theorem W4_h (c : Dev nD) : W4 (F := Ideal) m ρ c (Proc.devRef .tc main_v31)
    = RowBlockProduct.prod (R := 100000) (K := 128) (N := 128) (m ((c.tc : Thread nD τ).loc main_arg0))
        (transpose S128x128 [1, 0] (m ((c.tc : Thread nD τ).loc main_arg2)) transposes_S128x128_S128x128_1_0) := by
  refine (W4_arr m ρ c 2).trans ?_
  rw [Cert.KernelIdeal.Val0.arr_h (V3 m ρ) c]
  show RowBlockProduct.prod (W3 m ρ c (Proc.devRef .tc main_arg0)) (W3 m ρ c (Proc.devRef .tc main_v30)) = _
  rw [W3_arg0, W3_wt]

/-- An input window's array is left as entered: region 0's first operand. -/
theorem W4_arg0 (c : Dev nD) : W4 (F := Ideal) m ρ c (Proc.devRef .tc main_arg0) = m ((c.tc : Thread nD τ).loc main_arg0) :=
  ((W4_arr m ρ c 0).trans (((dat0 (V3 m ρ) c).arrAt_in 0 rfl _).trans (A_eq0 (V3 m ρ) c 0))).trans (W3_arg0 m ρ c)

/-- The aggregate at region 1's entry. -/
theorem W5_value (c : Dev nD) : W5 (F := Ideal) m ρ c (Proc.devRef .tc main_v44)
    = kAgg (m ((c.tc : Thread nD τ).loc main_arg1))
        (RowBlockProduct.prod (R := 100000) (K := 128) (N := 128) (m ((c.tc : Thread nD τ).loc main_arg0))
          (transpose S128x128 [1, 0] (m ((c.tc : Thread nD τ).loc main_arg2)) transposes_S128x128_S128x128_1_0)) := by
  rw [W5_agg, (W4_of_ne m ρ c main_v3 (by decide)).trans (W3_src m ρ c), (W4_of_ne m ρ c main_v6 (by decide)).trans (W3_dst m ρ c),
    (W4_of_ne m ρ c main_v29 (by decide)).trans (W3_norm m ρ c), W4_h]
  rfl

/-- The bias row at region 1's entry. -/
theorem W5_row (c : Dev nD) : W5 (F := Ideal) m ρ c (Proc.devRef .tc main_v45) = rowOf (m ((c.tc : Thread nD τ).loc main_arg3)) := by
  rw [W5_bias, (W4_of_ne m ρ c main_arg3 (by decide)).trans (W3_arg3 m ρ c)]

/-- Region 1's first operand is left as entered. -/
theorem W6_agg (c : Dev nD) : W6 (F := Ideal) m ρ c (Proc.devRef .tc main_v44) = W5 m ρ c (Proc.devRef .tc main_v44) :=
  (W6_arr m ρ c 0).trans (((dat1 (V5 m ρ) c).arrAt_in 0 rfl _).trans (A_eq1 (V5 m ρ) c 0))

/-- The two sums region 1 leaves. -/
theorem W6_sums (c : Dev nD) :
    W6 (F := Ideal) m ρ c (Proc.devRef .tc main_v46_0)
        = Cert.Spec.sumRow (W5 m ρ c (Proc.devRef .tc main_v44)) (W5 m ρ c (Proc.devRef .tc main_v45))
    ∧ W6 (F := Ideal) m ρ c (Proc.devRef .tc main_v46_1)
        = Cert.Spec.sumSqRow (W5 m ρ c (Proc.devRef .tc main_v44)) (W5 m ρ c (Proc.devRef .tc main_v45)) :=
  ⟨(W6_arr m ρ c 2).trans (Cert.KernelIdeal.Val1.arr_sum (V5 m ρ) c), (W6_arr m ρ c 3).trans (Cert.KernelIdeal.Val1.arr_sumsq (V5 m ρ) c)⟩

/-- The arguments region 2 and the last stretch read, at region 1's exit: as launched. -/
theorem W6_args (c : Dev nD) :
    W6 (F := Ideal) m ρ c (Proc.devRef .tc main_arg0) = m ((c.tc : Thread nD τ).loc main_arg0)
    ∧ W6 (F := Ideal) m ρ c (Proc.devRef .tc main_arg3) = m ((c.tc : Thread nD τ).loc main_arg3)
    ∧ W6 (F := Ideal) m ρ c (Proc.devRef .tc main_arg4) = m ((c.tc : Thread nD τ).loc main_arg4)
    ∧ W6 (F := Ideal) m ρ c (Proc.devRef .tc main_arg5) = m ((c.tc : Thread nD τ).loc main_arg5) := by
  obtain ⟨k0, k3, k4, k5⟩ := W5_keep m ρ c
  exact ⟨((W6_of_ne m ρ c main_arg0 (by decide)).trans k0).trans (W4_arg0 m ρ c),
    ((W6_of_ne m ρ c main_arg3 (by decide)).trans k3).trans ((W4_of_ne m ρ c main_arg3 (by decide)).trans (W3_arg3 m ρ c)),
    ((W6_of_ne m ρ c main_arg4 (by decide)).trans k4).trans ((W4_of_ne m ρ c main_arg4 (by decide)).trans (W3_arg4 m ρ c)),
    ((W6_of_ne m ρ c main_arg5 (by decide)).trans k5).trans ((W4_of_ne m ρ c main_arg5 (by decide)).trans (W3_arg5 m ρ c))⟩

/-- THE VALUE: after the run the result buffer's boundary contents are `kOut` of the launch contents of the arguments. -/
theorem W8_out (c : Dev nD) : W8 (F := Ideal) m ρ c (Proc.devRef .tc main_v56)
    = kOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (W8_arr m ρ c 7).trans ?_
  rw [Cert.KernelIdeal.Val2.arr_out (V7 m ρ) c]
  obtain ⟨r3, r4, r5⟩ := W7_rows m ρ c
  obtain ⟨ka, kx⟩ := W7_keep m ρ c
  obtain ⟨s1, s2⟩ := W6_sums m ρ c
  obtain ⟨a0, a3, a4, a5⟩ := W6_args m ρ c
  show Cert.Spec.epilogue (W7 m ρ c (Proc.devRef .tc main_v44)) (W7 m ρ c (Proc.devRef .tc main_v53)) (W7 m ρ c (Proc.devRef .tc main_v48))
      (W7 m ρ c (Proc.devRef .tc main_v52)) (W7 m ρ c (Proc.devRef .tc main_v54)) (W7 m ρ c (Proc.devRef .tc main_v55))
      (W7 m ρ c (Proc.devRef .tc main_arg0)) = _
  rw [ka, kx, r3, r4, r5, W7_mean, W7_var, s1, s2, a0, a3, a4, a5, W6_agg, W5_value, W5_row]
  rfl

end Cert.KernelIdeal.KValue

end
-- ==== Proof.RefChain.lean ====
/-
  The reference program's chain as pure functions of the arguments, operation by operation as printed: the aggregation
  (the same operations as the kernel program's, over the reference's own dimension records), jnp.var as its outlined
  function states it (the mean taken again inside, the squared deviations summed, the quotient by "count minus ddof"
  guarded by a compare that is true for ddof = 0), and the tail: bias, mean, variance, normalisation, scale and shift,
  rectifier, residual.
-/
import proofs.«109825_j67920612819495_1_alg».proof.ReferenceIdeal
import proofs.«109825_j67920612819495_1_alg».proof.Proof.Gen.ReferenceIdeal
import Idealize.ShloMosaic.PureOps.Ideal

noncomputable section

namespace Cert.ReferenceIdeal.RefChain

open Idealize.ShloMosaic Cert.ReferenceIdeal Cert.ReferenceIdeal.Gen

/-- Row `r` of the edge list followed by 0, 1, …, 99999: the 1700000 endpoints, edges first, then the self-loops. -/
def endpoints (off : Fin S2x1600000.rank → Nat) (hs : S2x1600000.Slices off S1x1600000) (EI : IVec S2x1600000 32) : IVec S1700000 32 :=
  concatenate S1700000 0
    [⟨S1600000, shapeCast S1600000 (extractStridedSlice S1x1600000 off EI hs) shapeCasts_S1x1600000_S1600000⟩,
     ⟨S100000, iotaInDim S100000 32 0⟩]
    concatenates_S1600000_S100000_S1700000_d0

/-- The sources. -/
def rSrc (EI : IVec S2x1600000 32) : IVec S1700000 32 := endpoints ![0, 0] slices_S2x1600000_S1x1600000_0_0 EI
/-- The destinations. -/
def rDst (EI : IVec S2x1600000 32) : IVec S1700000 32 := endpoints ![1, 0] slices_S2x1600000_S1x1600000_1_0 EI

/-- In-degree of every node, self-loop included: ones scattered onto zeros at the destinations. -/
def rDeg (EI : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (rDst EI))
    (broadcastInDim S1700000 ![] bcast_S_S1700000 (constant (F := Ideal) S_ .f32 0x3F800000#32))

/-- deg^(-1/2) where the degree is positive, 0 elsewhere. -/
def rDinv (EI : IVec S2x1600000 32) : FVec Ideal S100000 .f32 :=
  select (cmpf .ogt (rDeg EI) (broadcastInDim S100000 ![] bcast_S_S100000 (constant (F := Ideal) S_ .f32 0x00000000#32)))
    (Host.rsqrt (rDeg EI))
    (broadcastInDim S100000 ![] bcast_S_S100000 (id (constant (F := Ideal) S_ .f32 0x00000000#32)))

/-- jnp's index normalisation (a negative index counts from the end), as a column of start indices. -/
def rWrap (idx : IVec S1700000 32) : IVec S1700000x1 32 :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- The per-edge coefficient dinv[src] * dinv[dst]. -/
def rNorm (EI : IVec S2x1600000 32) : FVec Ideal S1700000 .f32 :=
  mulf (Host.gather gather_S100000_S1700000x1_S1700000_n_0_n_n_0_1_1 (rDinv EI) (rWrap (rSrc EI)))
    (Host.gather gather_S100000_S1700000x1_S1700000_n_0_n_n_0_1_1 (rDinv EI) (rWrap (rDst EI)))

/-- The aggregation from its four ingredients: rows of `h` gathered at the sources, scaled by the coefficient,
    scatter-added at the destinations. -/
def aggOf (src dst : IVec S1700000 32) (nrm : FVec Ideal S1700000 .f32) (h : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (Host.gather gather_S100000x128_S1700000x1_S1700000x128_1_0_n_n_0_1_1128 h (rWrap src))
      (broadcastInDim S1700000x128 ![0, 1] bcast_S1700000x1_S1700000x128_0_1
        (broadcastInDim S1700000x1 ![0] bcast_S1700000_S1700000x1_0 nrm)))

/-- The aggregate as a function of the edge list and of the transformed features. -/
def rAgg (EI : IVec S2x1600000 32) (h : FVec Ideal S100000x128 .f32) : FVec Ideal S100000x128 .f32 :=
  aggOf (rSrc EI) (rDst EI) (rNorm EI) h

/-- A 128-vector spread over all rows: [128] -> [1,128] -> [100000,128]. -/
def spread (v : FVec Ideal S128 .f32) : FVec Ideal S100000x128 .f32 :=
  broadcastInDim S100000x128 ![0, 1] bcast_S1x128_S100000x128_0_1 (broadcastInDim S1x128 ![1] bcast_S128_S1x128_1 v)

/-- jnp.var over the rows with ddof = 0, as its outlined function computes it. -/
def rVar (o : FVec Ideal S100000x128 .f32) : FVec Ideal S128 .f32 :=
  let zero := constant (F := Ideal) S_ .f32 0x00000000#32
  let v0 := Host.reduceAdd o zero reducesTo_S100000x128_S128_d0 h_S_
  let v1 := broadcastInDim S1x128 ![1] bcast_S128_S1x128_1 v0
  let v2 := broadcastInDim S1x128 ![] bcast_S_S1x128 (constant (F := Ideal) S_ .f32 0x47C35000#32)
  let v3 := Host.divf v1 v2
  let v4 := broadcastInDim S100000x128 ![0, 1] bcast_S1x128_S100000x128_0_1 v3
  let v5 := subf o v4
  let v6 := mulf v5 v5
  let v7 := sitofp (F := Ideal) .f32 (constantI S_ 32 0#32)
  let v8 := subf (constant (F := Ideal) S_ .f32 0x47C35000#32) v7
  let v9 := Host.reduceAdd v6 zero reducesTo_S100000x128_S128_d0 h_S_
  let v10 := broadcastInDim S128 ![] bcast_S_S128 v8
  let v11 := Host.divf v9 v10
  let v12 := cmpf .ogt v8 zero
  select (broadcastInDim S128 ![] bcast_S_S128 v12) v11
    (broadcastInDim S128 ![] bcast_S_S128 (id (constant (F := Ideal) S_ .f32 0x7FC00000#32)))

/-- The result as a function of the aggregate and of the arguments x, b, gamma, beta. -/
def rTail (a X : FVec Ideal S100000x128 .f32) (B G Be : FVec Ideal S128 .f32) : FVec Ideal S100000x128 .f32 :=
  let o := addf a (spread B)
  let mean := Host.divf (Host.reduceAdd o (constant (F := Ideal) S_ .f32 0x00000000#32) reducesTo_S100000x128_S128_d0 h_S_)
    (broadcastInDim S128 ![] bcast_S_S128 (constant (F := Ideal) S_ .f32 0x47C35000#32))
  let inv := Host.rsqrt (addf (rVar o) (broadcastInDim S128 ![] bcast_S_S128 (constant (F := Ideal) S_ .f32 0x3727C5AC#32)))
  let y := addf (mulf (mulf (subf o (spread mean)) (spread inv)) (spread G)) (spread Be)
  addf (maximumf y (broadcastInDim S100000x128 ![] bcast_S_S100000x128 (constant (F := Ideal) S_ .f32 0x00000000#32))) X

/-- The whole result as a function of the six arguments. -/
def rOut (X : FVec Ideal S100000x128 .f32) (EI : IVec S2x1600000 32) (W : FVec Ideal S128x128 .f32)
    (B G Be : FVec Ideal S128 .f32) : FVec Ideal S100000x128 .f32 :=
  rTail (rAgg EI (Host.dotGeneral (F := Ideal) dot_S100000x128_S128x128_S100000x128_1_0_0_1_n_n none X
    (transpose S128x128 [1, 0] W transposes_S128x128_S128x128_1_0))) X B G Be

end Cert.ReferenceIdeal.RefChain

end
-- ==== Proof.RefRun.lean ====
/-
  The reference program's run, read back: every weakly fair execution of the host program terminates with its result
  buffer at one composed term of the argument arrays, the arguments unchanged.

  The term is cut in three: the linear transform `x · Wᵀ` (one dot_general), the graph aggregation `rAgg` (degree,
  symmetric normalisation, gather, scale, scatter-add: a function of the edge list and of the transformed features), and
  the tail `rTail` (bias, batch mean and variance, normalisation, rectifier, residual: a function of the aggregate and of
  the arguments).
-/
import proofs.«109825_j67920612819495_1_alg».proof.ReferenceIdeal
import proofs.«109825_j67920612819495_1_alg».proof.Proof.Gen.ReferenceIdeal
import proofs.«109825_j67920612819495_1_alg».proof.Proof.RefChain
import Idealize.ShloMosaic.Lib.StableHlo.Run
import Idealize.ShloMosaic.PureOps.Ideal

set_option maxRecDepth 16384

noncomputable section

namespace Cert.ReferenceIdeal.RefRun

open Idealize.ShloMosaic Idealize.ShloMosaic.TcCoe Idealize.SL.Sem
open Cert.ReferenceIdeal Cert.ReferenceIdeal.Gen
open Cert.ReferenceIdeal.RefChain

open Idealize.ShloMosaic.StableHlo

variable {F : FTy → Type} [FloatOps F]

/-- Operations %0 … %cst_2: the two endpoint lists, the degrees, their compare with zero and their inverse square roots. -/
abbrev sA1 : List (HloOp τ sig (Elt F)) :=
  [ nullary main_v0 (iotaInDim S100000 32 0),
    unary main_arg1 main_v1 (extractStridedSlice S1x1600000 ![0, 0] · slices_S2x1600000_S1x1600000_0_0),
    reshape main_v1 main_v2 rfl shapeCasts_S1x1600000_S1600000,
    binary main_v2 main_v0 main_v3 (fun a b => concatenate S1700000 0 [⟨S1600000, a⟩, ⟨S100000, b⟩] concatenates_S1600000_S100000_S1700000_d0),
    unary main_arg1 main_v4 (extractStridedSlice S1x1600000 ![1, 0] · slices_S2x1600000_S1x1600000_1_0),
    reshape main_v4 main_v5 rfl shapeCasts_S1x1600000_S1600000,
    binary main_v5 main_v0 main_v6 (fun a b => concatenate S1700000 0 [⟨S1600000, a⟩, ⟨S100000, b⟩] concatenates_S1600000_S100000_S1700000_d0),
    nullary main_cst (constant S_ .f32 0x3F800000#32),
    unary main_cst main_v7 (broadcastInDim S1700000 ![] bcast_S_S1700000),
    nullary main_cst_0 (constant S_ .f32 0x00000000#32),
    unary main_cst_0 main_v8 (broadcastInDim S100000 ![] bcast_S_S100000),
    unary main_v6 main_v9 (broadcastInDim S1700000x1 ![0] bcast_S1700000_S1700000x1_0),
    ternary main_v8 main_v9 main_v7 main_v10 (fun x i u => Host.scatterAdd scatter_S100000_S1700000x1_S1700000_n_0_0_1 x i u),
    nullary main_cst_1 (constant S_ .f32 0x00000000#32),
    unary main_cst_1 main_v11 (broadcastInDim S100000 ![] bcast_S_S100000),
    binary main_v10 main_v11 main_v12 (cmpf .ogt),
    unary main_v10 main_v13 Host.rsqrt,
    nullary main_cst_2 (constant S_ .f32 0x00000000#32) ]

/-- %14, the call of @_where: its three operations (the zero converted to its own type, broadcast, the select) over the
    buffers of record main_call0. -/
abbrev sA1w : List (HloOp τ sig (Elt F)) :=
  [ TRef.unary (.of main_cst_2) main_call0.v0 id,
    TRef.unary main_call0.v0 main_call0.v1 (broadcastInDim S100000 ![] bcast_S_S100000),
    TRef.ternary (.of main_v12) (.of main_v13) main_call0.v1 main_call0.v2 select ]

/-- Operations %c … %29: the factor at each endpoint of every edge, and their product. -/
abbrev sA2 : List (HloOp τ sig (Elt F)) :=
  [ nullary main_c (constantI S_ 32 0#32),
    unary main_c main_v15 (broadcastInDim S1700000 ![] bcast_S_S1700000),
    binary main_v3 main_v15 main_v16 (cmpi .slt),
    nullary main_c_3 (constantI S_ 32 100000#32),
    unary main_c_3 main_v17 (broadcastInDim S1700000 ![] bcast_S_S1700000),
    binary main_v3 main_v17 main_v18 addi,
    ternary main_v16 main_v18 main_v3 main_v19 select,
    unary main_v19 main_v20 (broadcastInDim S1700000x1 ![0] bcast_S1700000_S1700000x1_0),
    binary main_v14 main_v20 main_v21 (fun x i => Host.gather gather_S100000_S1700000x1_S1700000_n_0_n_n_0_1_1 x i),
    nullary main_c_4 (constantI S_ 32 0#32),
    unary main_c_4 main_v22 (broadcastInDim S1700000 ![] bcast_S_S1700000),
    binary main_v6 main_v22 main_v23 (cmpi .slt),
    nullary main_c_5 (constantI S_ 32 100000#32),
    unary main_c_5 main_v24 (broadcastInDim S1700000 ![] bcast_S_S1700000),
    binary main_v6 main_v24 main_v25 addi,
    ternary main_v23 main_v25 main_v6 main_v26 select,
    unary main_v26 main_v27 (broadcastInDim S1700000x1 ![0] bcast_S1700000_S1700000x1_0),
    binary main_v14 main_v27 main_v28 (fun x i => Host.gather gather_S100000_S1700000x1_S1700000_n_0_n_n_0_1_1 x i),
    binary main_v21 main_v28 main_v29 mulf ]

/-- Operations %30, %31: the linear transform. -/
abbrev sA3 : List (HloOp τ sig (Elt F)) :=
  [ unary main_arg2 main_v30 (transpose S128x128 [1, 0] · transposes_S128x128_S128x128_1_0),
    binary main_arg0 main_v30 main_v31 (fun l r => Host.dotGeneral dot_S100000x128_S128x128_S100000x128_1_0_0_1_n_n none l r) ]

/-- Operations %c_6 … %44: the rows gathered at the first endpoints, scaled, summed onto the second endpoints. -/
abbrev sA4 : List (HloOp τ sig (Elt F)) :=
  [ nullary main_c_6 (constantI S_ 32 0#32),
    unary main_c_6 main_v32 (broadcastInDim S1700000 ![] bcast_S_S1700000),
    binary main_v3 main_v32 main_v33 (cmpi .slt),
    nullary main_c_7 (constantI S_ 32 100000#32),
    unary main_c_7 main_v34 (broadcastInDim S1700000 ![] bcast_S_S1700000),
    binary main_v3 main_v34 main_v35 addi,
    ternary main_v33 main_v35 main_v3 main_v36 select,
    unary main_v36 main_v37 (broadcastInDim S1700000x1 ![0] bcast_S1700000_S1700000x1_0),
    binary main_v31 main_v37 main_v38 (fun x i => Host.gather gather_S100000x128_S1700000x1_S1700000x128_1_0_n_n_0_1_1128 x i),
    unary main_v29 main_v39 (broadcastInDim S1700000x1 ![0] bcast_S1700000_S1700000x1_0),
    unary main_v39 main_v40 (broadcastInDim S1700000x128 ![0, 1] bcast_S1700000x1_S1700000x128_0_1),
    binary main_v38 main_v40 main_v41 mulf,
    nullary main_cst_8 (constant S_ .f32 0x00000000#32),
    unary main_cst_8 main_v42 (broadcastInDim S100000x128 ![] bcast_S_S100000x128),
    unary main_v6 main_v43 (broadcastInDim S1700000x1 ![0] bcast_S1700000_S1700000x1_0),
    ternary main_v42 main_v43 main_v41 main_v44 (fun x i u => Host.scatterAdd scatter_S100000x128_S1700000x1_S1700000x128_1_0_0_1 x i u) ]

/-- The 58 operations up to the aggregate %44, in order. -/
abbrev opsA : List (HloOp τ sig (Elt F)) := sA1 ++ sA1w ++ sA2 ++ sA3 ++ sA4

/-- Operations %45 … %c_11: the bias added, the mean of each channel (the first four close @main's first window). -/
abbrev sB1 : List (HloOp τ sig (Elt F)) :=
  [ unary main_arg3 main_v45 (broadcastInDim S1x128 ![1] bcast_S128_S1x128_1),
    unary main_v45 main_v46 (broadcastInDim S100000x128 ![0, 1] bcast_S1x128_S100000x128_0_1),
    binary main_v44 main_v46 main_v47 addf,
    nullary main_cst_9 (constant S_ .f32 0x00000000#32),
    binary main_v47 main_cst_9 main_v48 (fun x v => Host.reduceAdd x v reducesTo_S100000x128_S128_d0 h_S_),
    nullary main_cst_10 (constant S_ .f32 0x47C35000#32),
    unary main_cst_10 main_v49 (broadcastInDim S128 ![] bcast_S_S128),
    binary main_v48 main_v49 main_v50 Host.divf,
    nullary main_c_11 (constantI S_ 32 0#32) ]

/-- %51, the call of @_var, over the buffers of record main_call1 — its first nine operations: the mean taken again, the
    deviations, their squares. -/
abbrev sB2a : List (HloOp τ sig (Elt F)) :=
  [ TRef.nullary main_call1.cst (constant S_ .f32 0x00000000#32),
    TRef.binary (.of main_v47) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v47) main_call1.v4 main_call1.v5 subf,
    TRef.binary main_call1.v5 main_call1.v5 main_call1.v6 mulf ]

/-- @_var's next ten operations: the divisor (the count less the correction), the squares summed and divided by it, the
    compare of the divisor with zero, the not-a-number constant. -/
abbrev sB2b : List (HloOp τ sig (Elt F)) :=
  [ TRef.unary (.of main_c_11) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32) ]

/-- @_var's call of @_where_0: its three operations over the buffers of record main_call1_call0. -/
abbrev sB2c : List (HloOp τ sig (Elt F)) :=
  [ TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- Operations %52 … %66: normalisation, scale and shift. -/
abbrev sB3a : List (HloOp τ sig (Elt F)) :=
  [ unary main_v50 main_v52 (broadcastInDim S1x128 ![1] bcast_S128_S1x128_1),
    unary main_v52 main_v53 (broadcastInDim S100000x128 ![0, 1] bcast_S1x128_S100000x128_0_1),
    binary main_v47 main_v53 main_v54 subf,
    nullary main_cst_12 (constant S_ .f32 0x3727C5AC#32),
    unary main_cst_12 main_v55 (broadcastInDim S128 ![] bcast_S_S128),
    binary main_v51 main_v55 main_v56 addf,
    unary main_v56 main_v57 Host.rsqrt,
    unary main_v57 main_v58 (broadcastInDim S1x128 ![1] bcast_S128_S1x128_1),
    unary main_v58 main_v59 (broadcastInDim S100000x128 ![0, 1] bcast_S1x128_S100000x128_0_1),
    binary main_v54 main_v59 main_v60 mulf,
    unary main_arg4 main_v61 (broadcastInDim S1x128 ![1] bcast_S128_S1x128_1),
    unary main_v61 main_v62 (broadcastInDim S100000x128 ![0, 1] bcast_S1x128_S100000x128_0_1),
    binary main_v60 main_v62 main_v63 mulf,
    unary main_arg5 main_v64 (broadcastInDim S1x128 ![1] bcast_S128_S1x128_1),
    unary main_v64 main_v65 (broadcastInDim S100000x128 ![0, 1] bcast_S1x128_S100000x128_0_1),
    binary main_v63 main_v65 main_v66 addf ]

/-- %67, the call of @relu (its three operations over the buffers of record main_call2), and %68, the residual. -/
abbrev sB3r : List (HloOp τ sig (Elt F)) :=
  [ TRef.nullary main_call2.cst (constant S_ .f32 0x00000000#32),
    TRef.unary main_call2.cst main_call2.v0 (broadcastInDim S100000x128 ![] bcast_S_S100000x128),
    TRef.binary (.of main_v66) main_call2.v0 main_call2.v1 maximumf,
    binary main_v67 main_arg0 main_v68 addf ]

/-- The 51 operations after the aggregate, in order. -/
abbrev opsB : List (HloOp τ sig (Elt F)) := sB1 ++ sB2a ++ sB2b ++ sB2c ++ sB3a ++ sB3r

set_option maxRecDepth 8192 in
set_option maxHeartbeats 4000000 in
/-- @main is that straight line: its two windows in order, the callees' definitions unfolded at their calls and the
    records at their fields. -/
theorem main_eq (c : Dev nD) : main (F := F) c = seq (opsA ++ opsB) := rfl

/-! ## What the line touches -/

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
private theorem forall_append {p : HloOp τ sig (Elt F) → Prop} {l₁ l₂ : List (HloOp τ sig (Elt F))}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem sA1_sub : (sA1 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..⟩
theorem sA1w_sub : (sA1w : List (HloOp τ sig (Elt F))).Forall fun op => op.bufs ⊆ tcRefs τ sig :=
  ⟨unary_bufs_sub .., unary_bufs_sub .., ternary_bufs_sub ..⟩
theorem sA2_sub : (sA2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub ..⟩
theorem sA3_sub : (sA3 : List (HloOp τ sig (Elt F))).Forall fun op => op.bufs ⊆ tcRefs τ sig :=
  ⟨unary_bufs_sub .., binary_bufs_sub ..⟩
theorem sA4_sub : (sA4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩
theorem sB1_sub : (sB1 : List (HloOp τ sig (Elt F))).Forall fun op => op.bufs ⊆ tcRefs τ sig :=
  ⟨unary_bufs_sub .., unary_bufs_sub .., binary_bufs_sub .., nullary_bufs_sub .., binary_bufs_sub .., nullary_bufs_sub ..,
    unary_bufs_sub .., binary_bufs_sub .., nullary_bufs_sub ..⟩
theorem sB2a_sub : (sB2a : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub ..⟩
theorem sB2b_sub : (sB2b : List (HloOp τ sig (Elt F))).Forall fun op => op.bufs ⊆ tcRefs τ sig :=
  ⟨unary_bufs_sub .., nullary_bufs_sub .., binary_bufs_sub .., nullary_bufs_sub .., binary_bufs_sub .., unary_bufs_sub ..,
    binary_bufs_sub .., nullary_bufs_sub .., binary_bufs_sub .., nullary_bufs_sub ..⟩
theorem sB2c_sub : (sB2c : List (HloOp τ sig (Elt F))).Forall fun op => op.bufs ⊆ tcRefs τ sig :=
  ⟨unary_bufs_sub .., unary_bufs_sub .., ternary_bufs_sub ..⟩
theorem sB3a_sub : (sB3a : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩
theorem sB3r_sub : (sB3r : List (HloOp τ sig (Elt F))).Forall fun op => op.bufs ⊆ tcRefs τ sig :=
  ⟨nullary_bufs_sub .., unary_bufs_sub .., binary_bufs_sub .., binary_bufs_sub ..⟩

/-- Every operation of the line touches TensorCore references only. -/
theorem ops_sub : (opsA ++ opsB : List (HloOp τ sig (Elt F))).Forall fun op => op.bufs ⊆ tcRefs τ sig :=
  forall_append
    (forall_append (forall_append (forall_append (forall_append sA1_sub sA1w_sub) sA2_sub) sA3_sub) sA4_sub)
    (forall_append (forall_append (forall_append (forall_append (forall_append sB1_sub sB2a_sub) sB2b_sub) sB2c_sub) sB3a_sub)
      sB3r_sub)

theorem sA1_fresh : ∀ op ∈ (sA1 : List (HloOp τ sig (Elt F))), op.fresh = ∅ := by
  intro _ h; (repeat (cases h with | head => rfl | tail _ h => ?_)); exact nomatch h
theorem sA1w_fresh : ∀ op ∈ (sA1w : List (HloOp τ sig (Elt F))), op.fresh = ∅ := by
  intro _ h; (repeat (cases h with | head => rfl | tail _ h => ?_)); exact nomatch h
theorem sA2_fresh : ∀ op ∈ (sA2 : List (HloOp τ sig (Elt F))), op.fresh = ∅ := by
  intro _ h; (repeat (cases h with | head => rfl | tail _ h => ?_)); exact nomatch h
theorem sA3_fresh : ∀ op ∈ (sA3 : List (HloOp τ sig (Elt F))), op.fresh = ∅ := by
  intro _ h; (repeat (cases h with | head => rfl | tail _ h => ?_)); exact nomatch h
theorem sA4_fresh : ∀ op ∈ (sA4 : List (HloOp τ sig (Elt F))), op.fresh = ∅ := by
  intro _ h; (repeat (cases h with | head => rfl | tail _ h => ?_)); exact nomatch h
theorem sB1_fresh : ∀ op ∈ (sB1 : List (HloOp τ sig (Elt F))), op.fresh = ∅ := by
  intro _ h; (repeat (cases h with | head => rfl | tail _ h => ?_)); exact nomatch h
theorem sB2a_fresh : ∀ op ∈ (sB2a : List (HloOp τ sig (Elt F))), op.fresh = ∅ := by
  intro _ h; (repeat (cases h with | head => rfl | tail _ h => ?_)); exact nomatch h
theorem sB2b_fresh : ∀ op ∈ (sB2b : List (HloOp τ sig (Elt F))), op.fresh = ∅ := by
  intro _ h; (repeat (cases h with | head => rfl | tail _ h => ?_)); exact nomatch h
theorem sB2c_fresh : ∀ op ∈ (sB2c : List (HloOp τ sig (Elt F))), op.fresh = ∅ := by
  intro _ h; (repeat (cases h with | head => rfl | tail _ h => ?_)); exact nomatch h
theorem sB3a_fresh : ∀ op ∈ (sB3a : List (HloOp τ sig (Elt F))), op.fresh = ∅ := by
  intro _ h; (repeat (cases h with | head => rfl | tail _ h => ?_)); exact nomatch h
theorem sB3r_fresh : ∀ op ∈ (sB3r : List (HloOp τ sig (Elt F))), op.fresh = ∅ := by
  intro _ h; (repeat (cases h with | head => rfl | tail _ h => ?_)); exact nomatch h

/-- Every operation of the line determines its results. -/
theorem ops_fresh : ∀ op ∈ (opsA ++ opsB : List (HloOp τ sig (Elt F))), op.fresh = ∅ := by
  intro op h
  simp only [List.mem_append] at h
  rcases h with ((((h | h) | h) | h) | h) | (((((h | h) | h) | h) | h) | h)
  exacts [sA1_fresh op h, sA1w_fresh op h, sA2_fresh op h, sA3_fresh op h, sA4_fresh op h, sB1_fresh op h, sB2a_fresh op h,
    sB2b_fresh op h, sB2c_fresh op h, sB3a_fresh op h, sB3r_fresh op h]

/-! ## The contents after the line, stretch by stretch

Each stretch's reads are stated from arbitrary contents before it, as functions of the contents of the buffers it reads;
each callee's operations are a stretch of their own. The stretches are then composed. -/

/-- Two lines run one after the other fold as the second over the first. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- A line that leaves buffer `r` as it was, from any contents. -/
def Keeps (r : Ref sig .tc) (ops : List (HloOp τ sig (Elt Ideal))) : Prop :=
  ∀ Wp : Valuation τ sig (Elt Ideal), after ops Wp (Proc.devRef .tc r) = Wp (Proc.devRef .tc r)

theorem Keeps.append {r : Ref sig .tc} {l₁ l₂ : List (HloOp τ sig (Elt Ideal))} (h₁ : Keeps r l₁) (h₂ : Keeps r l₂) :
    Keeps r (l₁ ++ l₂) := fun Wp => by rw [after_append', h₂, h₁]

/-- The six argument buffers. -/
abbrev argRefs : List (Ref sig .tc) := [main_arg0, main_arg1, main_arg2, main_arg3, main_arg4, main_arg5]

/-! ### What a stretch reads back, as functions of what it reads

Small typed names for the terms the stretches' lemmas state, each a few of the printed operations; the aggregate and the
tail are these composed. -/

/-- %30, %31: the features times the transposed weights. -/
noncomputable def hOf (X : FVec Ideal S100000x128 .f32) (W : FVec Ideal S128x128 .f32) : FVec Ideal S100000x128 .f32 :=
  Host.dotGeneral (F := Ideal) dot_S100000x128_S128x128_S100000x128_1_0_0_1_n_n none X
    (transpose S128x128 [1, 0] W transposes_S128x128_S128x128_1_0)

/-- %14, @_where's three operations: the select against the broadcast of the converted zero. -/
noncomputable def whereOf (p : IVec S100000 1) (a : FVec Ideal S100000 .f32) (z : FVec Ideal S_ .f32) : FVec Ideal S100000 .f32 :=
  select p a (broadcastInDim S100000 ![] bcast_S_S100000 (id z))

/-- %21, %28, %29: the factor gathered at each endpoint of every edge, and their product. -/
noncomputable def normOf (dinv : FVec Ideal S100000 .f32) (src dst : IVec S1700000 32) : FVec Ideal S1700000 .f32 :=
  mulf (Host.gather gather_S100000_S1700000x1_S1700000_n_0_n_n_0_1_1 dinv (rWrap src)) (Host.gather gather_S100000_S1700000x1_S1700000_n_0_n_n_0_1_1 dinv (rWrap dst))

/-- %47: the bias added to every row. -/
noncomputable def biasOf (a : FVec Ideal S100000x128 .f32) (B : FVec Ideal S128 .f32) : FVec Ideal S100000x128 .f32 :=
  addf a (spread B)

/-- %48 … %50: the mean of each channel over the nodes. -/
noncomputable def meanOf (o : FVec Ideal S100000x128 .f32) : FVec Ideal S128 .f32 :=
  Host.divf (Host.reduceAdd o (constant (F := Ideal) S_ .f32 0x00000000#32) reducesTo_S100000x128_S128_d0 h_S_)
    (broadcastInDim S128 ![] bcast_S_S128 (constant (F := Ideal) S_ .f32 0x47C35000#32))

/-- @_var's %0 … %5: the entries less their channel's mean, the mean taken over the nodes again. -/
noncomputable def centredOf (o : FVec Ideal S100000x128 .f32) : FVec Ideal S100000x128 .f32 :=
  subf o (broadcastInDim S100000x128 ![0, 1] bcast_S1x128_S100000x128_0_1
    (Host.divf
      (broadcastInDim S1x128 ![1] bcast_S128_S1x128_1
        (Host.reduceAdd o (constant (F := Ideal) S_ .f32 0x00000000#32) reducesTo_S100000x128_S128_d0 h_S_))
      (broadcastInDim S1x128 ![] bcast_S_S1x128 (constant (F := Ideal) S_ .f32 0x47C35000#32))))

/-- @_var's %6: the squared deviations. -/
noncomputable def devSqOf (o : FVec Ideal S100000x128 .f32) : FVec Ideal S100000x128 .f32 :=
  mulf (centredOf o) (centredOf o)

/-- @_var's %7, %8: the count less the correction. -/
noncomputable def divisorOf (c : IVec S_ 32) : FVec Ideal S_ .f32 :=
  subf (constant (F := Ideal) S_ .f32 0x47C35000#32) (sitofp (F := Ideal) .f32 c)

/-- @_var's %9 … %11: the squared deviations summed over the nodes, divided by the divisor. -/
noncomputable def quotOf (d : FVec Ideal S100000x128 .f32) (c : IVec S_ 32) : FVec Ideal S128 .f32 :=
  Host.divf (Host.reduceAdd d (constant (F := Ideal) S_ .f32 0x00000000#32) reducesTo_S100000x128_S128_d0 h_S_)
    (broadcastInDim S128 ![] bcast_S_S128 (divisorOf c))

/-- @_var's %12: is the divisor positive. -/
noncomputable def posOf (c : IVec S_ 32) : IVec S_ 1 :=
  cmpf .ogt (divisorOf c) (constant (F := Ideal) S_ .f32 0x00000000#32)

/-- @_where_0's three operations: the select on the broadcast flag against the broadcast of the converted constant. -/
noncomputable def where0Of (p : IVec S_ 1) (a : FVec Ideal S128 .f32) (z : FVec Ideal S_ .f32) : FVec Ideal S128 .f32 :=
  select (broadcastInDim S128 ![] bcast_S_S128 p) a (broadcastInDim S128 ![] bcast_S_S128 (id z))

/-- %52 … %66: centre, scale by the inverse root of the offset variance, then by the gain, and shift. -/
noncomputable def yOf (o : FVec Ideal S100000x128 .f32) (mean var G Be : FVec Ideal S128 .f32) : FVec Ideal S100000x128 .f32 :=
  addf (mulf (mulf (subf o (spread mean))
          (spread (Host.rsqrt (addf var (broadcastInDim S128 ![] bcast_S_S128 (constant (F := Ideal) S_ .f32 0x3727C5AC#32))))))
        (spread G))
    (spread Be)

/-- %67, %68: the rectifier, then the residual. -/
noncomputable def reluResOf (y X : FVec Ideal S100000x128 .f32) : FVec Ideal S100000x128 .f32 :=
  addf (maximumf y (broadcastInDim S100000x128 ![] bcast_S_S100000x128 (constant (F := Ideal) S_ .f32 0x00000000#32))) X

/-! ### The buffers a stretch leaves as they were -/

set_option maxHeartbeats 1000000 in
theorem keeps_sA1 : ∀ r ∈ argRefs, Keeps r (sA1 (F := Ideal)) := by
  intro r hr Wp
  simp only [argRefs, List.mem_cons, List.not_mem_nil, or_false] at hr
  rcases hr with rfl | rfl | rfl | rfl | rfl | rfl <;> after_results
set_option maxHeartbeats 1000000 in
theorem keeps_sA1w : ∀ r ∈ argRefs ++ [main_v3, main_v6], Keeps r (sA1w (F := Ideal)) := by
  intro r hr Wp
  simp only [argRefs, List.mem_append, List.mem_cons, List.not_mem_nil, or_false] at hr
  rcases hr with (rfl | rfl | rfl | rfl | rfl | rfl) | (rfl | rfl) <;> after_results
set_option maxHeartbeats 1000000 in
theorem keeps_sA2 : ∀ r ∈ argRefs ++ [main_v3, main_v6], Keeps r (sA2 (F := Ideal)) := by
  intro r hr Wp
  simp only [argRefs, List.mem_append, List.mem_cons, List.not_mem_nil, or_false] at hr
  rcases hr with (rfl | rfl | rfl | rfl | rfl | rfl) | (rfl | rfl) <;> after_results
set_option maxHeartbeats 1000000 in
theorem keeps_sA3 : ∀ r ∈ argRefs ++ [main_v3, main_v6, main_v29], Keeps r (sA3 (F := Ideal)) := by
  intro r hr Wp
  simp only [argRefs, List.mem_append, List.mem_cons, List.not_mem_nil, or_false] at hr
  rcases hr with (rfl | rfl | rfl | rfl | rfl | rfl) | (rfl | rfl | rfl) <;> after_results
set_option maxHeartbeats 1000000 in
theorem keeps_sA4 : ∀ r ∈ argRefs, Keeps r (sA4 (F := Ideal)) := by
  intro r hr Wp
  simp only [argRefs, List.mem_cons, List.not_mem_nil, or_false] at hr
  rcases hr with rfl | rfl | rfl | rfl | rfl | rfl <;> after_results
set_option maxHeartbeats 1000000 in
theorem keeps_sB1 : ∀ r ∈ argRefs, Keeps r (sB1 (F := Ideal)) := by
  intro r hr Wp
  simp only [argRefs, List.mem_cons, List.not_mem_nil, or_false] at hr
  rcases hr with rfl | rfl | rfl | rfl | rfl | rfl <;> after_results
set_option maxHeartbeats 1000000 in
theorem keeps_sB2a : ∀ r ∈ argRefs ++ [main_v47, main_v50, main_c_11], Keeps r (sB2a (F := Ideal)) := by
  intro r hr Wp
  simp only [argRefs, List.mem_append, List.mem_cons, List.not_mem_nil, or_false] at hr
  rcases hr with (rfl | rfl | rfl | rfl | rfl | rfl) | (rfl | rfl | rfl) <;> after_results
set_option maxHeartbeats 1000000 in
theorem keeps_sB2b : ∀ r ∈ argRefs ++ [main_v47, main_v50], Keeps r (sB2b (F := Ideal)) := by
  intro r hr Wp
  simp only [argRefs, List.mem_append, List.mem_cons, List.not_mem_nil, or_false] at hr
  rcases hr with (rfl | rfl | rfl | rfl | rfl | rfl) | (rfl | rfl) <;> after_results
set_option maxHeartbeats 1000000 in
theorem keeps_sB2c : ∀ r ∈ argRefs ++ [main_v47, main_v50], Keeps r (sB2c (F := Ideal)) := by
  intro r hr Wp
  simp only [argRefs, List.mem_append, List.mem_cons, List.not_mem_nil, or_false] at hr
  rcases hr with (rfl | rfl | rfl | rfl | rfl | rfl) | (rfl | rfl) <;> after_results
set_option maxHeartbeats 1000000 in
theorem keeps_sB3a : ∀ r ∈ argRefs, Keeps r (sB3a (F := Ideal)) := by
  intro r hr Wp
  simp only [argRefs, List.mem_cons, List.not_mem_nil, or_false] at hr
  rcases hr with rfl | rfl | rfl | rfl | rfl | rfl <;> after_results
set_option maxHeartbeats 1000000 in
theorem keeps_sB3r : ∀ r ∈ argRefs, Keeps r (sB3r (F := Ideal)) := by
  intro r hr Wp
  simp only [argRefs, List.mem_cons, List.not_mem_nil, or_false] at hr
  rcases hr with rfl | rfl | rfl | rfl | rfl | rfl <;> after_results

/-- The first 58 operations leave the six argument buffers as they were. -/
theorem keeps_opsA : ∀ r ∈ argRefs, Keeps r (opsA (F := Ideal)) := fun r hr =>
  ((((keeps_sA1 r hr).append (keeps_sA1w r (List.mem_append_left _ hr))).append (keeps_sA2 r (List.mem_append_left _ hr))).append
    (keeps_sA3 r (List.mem_append_left _ hr))).append (keeps_sA4 r hr)
/-- The last 51 operations leave the six argument buffers as they were. -/
theorem keeps_opsB : ∀ r ∈ argRefs, Keeps r (opsB (F := Ideal)) := fun r hr =>
  (((((keeps_sB1 r hr).append (keeps_sB2a r (List.mem_append_left _ hr))).append (keeps_sB2b r (List.mem_append_left _ hr))).append
    (keeps_sB2c r (List.mem_append_left _ hr))).append (keeps_sB3a r hr)).append (keeps_sB3r r hr)
/-- The whole line leaves the six argument buffers as they were. -/
theorem keeps_ops : ∀ r ∈ argRefs, Keeps r (opsA ++ opsB) := fun r hr => (keeps_opsA r hr).append (keeps_opsB r hr)

/-! ### What each stretch reads back -/

section Stretches

variable (Wp : Valuation τ sig (Elt Ideal))

set_option maxHeartbeats 1000000 in
theorem a1_src : after (sA1 (F := Ideal)) Wp (Proc.devRef .tc main_v3) = rSrc (Wp (Proc.devRef .tc main_arg1)) := by
  after_results; rfl
set_option maxHeartbeats 1000000 in
theorem a1_dst : after (sA1 (F := Ideal)) Wp (Proc.devRef .tc main_v6) = rDst (Wp (Proc.devRef .tc main_arg1)) := by
  after_results; rfl
set_option maxHeartbeats 1000000 in
theorem a1_cmp : after (sA1 (F := Ideal)) Wp (Proc.devRef .tc main_v12)
    = cmpf .ogt (rDeg (Wp (Proc.devRef .tc main_arg1))) (broadcastInDim S100000 ![] bcast_S_S100000 (constant (F := Ideal) S_ .f32 0x00000000#32)) := by
  after_results; rfl
set_option maxHeartbeats 1000000 in
theorem a1_rsq : after (sA1 (F := Ideal)) Wp (Proc.devRef .tc main_v13) = Host.rsqrt (rDeg (Wp (Proc.devRef .tc main_arg1))) := by
  after_results; rfl
set_option maxHeartbeats 1000000 in
theorem a1_zero : after (sA1 (F := Ideal)) Wp (Proc.devRef .tc main_cst_2) = constant (F := Ideal) S_ .f32 0x00000000#32 := by
  after_results

theorem a1w_dinv : after (sA1w (F := Ideal)) Wp (Proc.devRef .tc main_v14)
    = whereOf (Wp (Proc.devRef .tc main_v12)) (Wp (Proc.devRef .tc main_v13)) (Wp (Proc.devRef .tc main_cst_2)) := by
  after_results; rfl

set_option maxHeartbeats 1000000 in
theorem a2_norm : after (sA2 (F := Ideal)) Wp (Proc.devRef .tc main_v29)
    = normOf (Wp (Proc.devRef .tc main_v14)) (Wp (Proc.devRef .tc main_v3)) (Wp (Proc.devRef .tc main_v6)) := by
  after_results; rfl

theorem a3_h : after (sA3 (F := Ideal)) Wp (Proc.devRef .tc main_v31) = hOf (Wp (Proc.devRef .tc main_arg0)) (Wp (Proc.devRef .tc main_arg2)) := by
  after_results; rfl

set_option maxHeartbeats 1000000 in
theorem a4_agg : after (sA4 (F := Ideal)) Wp (Proc.devRef .tc main_v44)
    = aggOf (Wp (Proc.devRef .tc main_v3)) (Wp (Proc.devRef .tc main_v6)) (Wp (Proc.devRef .tc main_v29)) (Wp (Proc.devRef .tc main_v31)) := by
  after_results; rfl

set_option maxHeartbeats 1000000 in
theorem b1_o : after (sB1 (F := Ideal)) Wp (Proc.devRef .tc main_v47) = biasOf (Wp (Proc.devRef .tc main_v44)) (Wp (Proc.devRef .tc main_arg3)) := by
  after_results; rfl
set_option maxHeartbeats 1000000 in
theorem b1_mean : after (sB1 (F := Ideal)) Wp (Proc.devRef .tc main_v50)
    = meanOf (biasOf (Wp (Proc.devRef .tc main_v44)) (Wp (Proc.devRef .tc main_arg3))) := by
  after_results; rfl
set_option maxHeartbeats 1000000 in
theorem b1_c : after (sB1 (F := Ideal)) Wp (Proc.devRef .tc main_c_11) = constantI S_ 32 0#32 := by
  after_results

set_option maxHeartbeats 1000000 in
theorem b2a_d : after (sB2a (F := Ideal)) Wp (Proc.devRef .tc main_call1_v6) = devSqOf (Wp (Proc.devRef .tc main_v47)) := by
  after_results; rfl

set_option maxHeartbeats 1000000 in
theorem b2b_q : after (sB2b (F := Ideal)) Wp (Proc.devRef .tc main_call1_v11)
    = quotOf (Wp (Proc.devRef .tc main_call1_v6)) (Wp (Proc.devRef .tc main_c_11)) := by
  after_results; rfl
set_option maxHeartbeats 1000000 in
theorem b2b_p : after (sB2b (F := Ideal)) Wp (Proc.devRef .tc main_call1_v12) = posOf (Wp (Proc.devRef .tc main_c_11)) := by
  after_results; rfl
set_option maxHeartbeats 1000000 in
theorem b2b_nan : after (sB2b (F := Ideal)) Wp (Proc.devRef .tc main_call1_cst_4) = constant (F := Ideal) S_ .f32 0x7FC00000#32 := by
  after_results; rfl

theorem b2c_var : after (sB2c (F := Ideal)) Wp (Proc.devRef .tc main_v51)
    = where0Of (Wp (Proc.devRef .tc main_call1_v12)) (Wp (Proc.devRef .tc main_call1_v11)) (Wp (Proc.devRef .tc main_call1_cst_4)) := by
  after_results; rfl

set_option maxHeartbeats 1000000 in
theorem b3a_y : after (sB3a (F := Ideal)) Wp (Proc.devRef .tc main_v66)
    = yOf (Wp (Proc.devRef .tc main_v47)) (Wp (Proc.devRef .tc main_v50)) (Wp (Proc.devRef .tc main_v51)) (Wp (Proc.devRef .tc main_arg4)) (Wp (Proc.devRef .tc main_arg5)) := by
  after_results; rfl

theorem b3r_out : after (sB3r (F := Ideal)) Wp (Proc.devRef .tc main_v68) = reluResOf (Wp (Proc.devRef .tc main_v66)) (Wp (Proc.devRef .tc main_arg0)) := by
  after_results; rfl

end Stretches

/-! ## The stretches composed -/

/-- The aggregate after the first 58 operations, from any contents. -/
theorem aggA (V : Valuation τ sig (Elt Ideal)) :
    after (opsA (F := Ideal)) V (Proc.devRef .tc main_v44)
      = rAgg (V (Proc.devRef .tc main_arg1)) (hOf (V (Proc.devRef .tc main_arg0)) (V (Proc.devRef .tc main_arg2))) := by
  show after (sA1 ++ sA1w ++ sA2 ++ sA3 ++ sA4) V _ = _
  rw [after_append', after_append', after_append', after_append', a4_agg, a3_h,
    keeps_sA3 main_v3 (by decide) _, keeps_sA3 main_v6 (by decide) _, keeps_sA3 main_v29 (by decide) _, a2_norm,
    keeps_sA2 main_v3 (by decide) _, keeps_sA2 main_v6 (by decide) _, keeps_sA2 main_arg0 (by decide) _, keeps_sA2 main_arg2 (by decide) _,
    a1w_dinv, keeps_sA1w main_v3 (by decide) _, keeps_sA1w main_v6 (by decide) _, keeps_sA1w main_arg0 (by decide) _,
    keeps_sA1w main_arg2 (by decide) _, a1_cmp, a1_rsq, a1_zero, a1_src, a1_dst,
    keeps_sA1 main_arg0 (by decide) _, keeps_sA1 main_arg2 (by decide) _]
  rfl

/-- The result after the last 51 operations, from any contents. -/
theorem tailB (W : Valuation τ sig (Elt Ideal)) :
    after (opsB (F := Ideal)) W (Proc.devRef .tc main_v68)
      = rTail (W (Proc.devRef .tc main_v44)) (W (Proc.devRef .tc main_arg0)) (W (Proc.devRef .tc main_arg3)) (W (Proc.devRef .tc main_arg4)) (W (Proc.devRef .tc main_arg5)) := by
  show after (sB1 ++ sB2a ++ sB2b ++ sB2c ++ sB3a ++ sB3r) W _ = _
  rw [after_append', after_append', after_append', after_append', after_append', b3r_out, b3a_y,
    keeps_sB3a main_arg0 (by decide) _, b2c_var,
    keeps_sB2c main_v47 (by decide) _, keeps_sB2c main_v50 (by decide) _, keeps_sB2c main_arg0 (by decide) _, keeps_sB2c main_arg4 (by decide) _,
    keeps_sB2c main_arg5 (by decide) _, b2b_q, b2b_p, b2b_nan,
    keeps_sB2b main_v47 (by decide) _, keeps_sB2b main_v50 (by decide) _, keeps_sB2b main_arg0 (by decide) _, keeps_sB2b main_arg4 (by decide) _,
    keeps_sB2b main_arg5 (by decide) _, b2a_d,
    keeps_sB2a main_c_11 (by decide) _, keeps_sB2a main_v47 (by decide) _, keeps_sB2a main_v50 (by decide) _, keeps_sB2a main_arg0 (by decide) _,
    keeps_sB2a main_arg4 (by decide) _, keeps_sB2a main_arg5 (by decide) _, b1_o, b1_mean, b1_c,
    keeps_sB1 main_arg0 (by decide) _, keeps_sB1 main_arg4 (by decide) _, keeps_sB1 main_arg5 (by decide) _]
  rfl

/-- The result buffer after the whole line, from any contents. -/
theorem out_eq (V : Valuation τ sig (Elt Ideal)) :
    after (opsA ++ opsB) V (Proc.devRef .tc main_v68)
      = rOut (V (Proc.devRef .tc main_arg0)) (V (Proc.devRef .tc main_arg1)) (V (Proc.devRef .tc main_arg2)) (V (Proc.devRef .tc main_arg3)) (V (Proc.devRef .tc main_arg4))
          (V (Proc.devRef .tc main_arg5)) := by
  rw [after_append', tailB, aggA, keeps_opsA main_arg0 (by decide) _, keeps_opsA main_arg3 (by decide) _,
    keeps_opsA main_arg4 (by decide) _, keeps_opsA main_arg5 (by decide) _]
  rfl

/-- Every weakly fair execution of the reference terminates, nothing faulting, with the result buffer at `rOut` of the
    launch contents of the arguments and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68)
          = rOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨(h c main_v68).trans (out_eq _),
      (h c main_arg0).trans (keeps_ops main_arg0 (by decide) _), (h c main_arg1).trans (keeps_ops main_arg1 (by decide) _),
      (h c main_arg2).trans (keeps_ops main_arg2 (by decide) _), (h c main_arg3).trans (keeps_ops main_arg3 (by decide) _),
      (h c main_arg4).trans (keeps_ops main_arg4 (by decide) _), (h c main_arg5).trans (keeps_ops main_arg5 (by decide) _)⟩)
    (run_seq scopedRefs_eq scopedSems_eq defs main (fun _ => opsA ++ opsB) main_eq (fun _ => ops_sub) m ρ
      (fun _ => ops_fresh))

end Cert.ReferenceIdeal.RefRun

end
-- ==== Proof.AggSame.lean ====
/-
  The two programs aggregate alike: the reference's host chain from the edge list and the transformed features to the
  aggregate is, operation by operation, the kernel program's; and the reference's one dot_general is the whole matrix
  product the kernel's row blocks assemble.
-/
import proofs.«109825_j67920612819495_1_alg».proof.Proof.RefChain
import proofs.«109825_j67920612819495_1_alg».proof.Proof.KChain
import proofs.«109825_j67920612819495_1_alg».proof.Proof.LibPlainDot
import proofs.«109825_j67920612819495_1_alg».proof.Proof.LibRowBlockProduct

noncomputable section

namespace Cert.AggSame

open Idealize.ShloMosaic

open Cert.ReferenceIdeal.RefChain Cert.KernelIdeal.KChain

/-! ## The dimension records: the two programs' copies have the same fields -/

private theorem scatterDeg_eq : Cert.ReferenceIdeal.scatter_S100000_S1700000x1_S1700000_n_0_0_1
    = Cert.KernelIdeal.scatter_S100000_S1700000x1_S1700000_n_0_0_1 := rfl

private theorem scatterAgg_eq : Cert.ReferenceIdeal.scatter_S100000x128_S1700000x1_S1700000x128_1_0_0_1
    = Cert.KernelIdeal.scatter_S100000x128_S1700000x1_S1700000x128_1_0_0_1 := rfl

private theorem gatherVec_eq : Cert.ReferenceIdeal.gather_S100000_S1700000x1_S1700000_n_0_n_n_0_1_1
    = Cert.KernelIdeal.gather_S100000_S1700000x1_S1700000_n_0_n_n_0_1_1 := rfl

private theorem gatherRows_eq : Cert.ReferenceIdeal.gather_S100000x128_S1700000x1_S1700000x128_1_0_n_n_0_1_1128
    = Cert.KernelIdeal.gather_S100000x128_S1700000x1_S1700000x128_1_0_n_n_0_1_1128 := rfl

/-! ## The chain, definition by definition: each stage is the same operation of the same operands -/

/-- The same sources. -/
private theorem src_eq (EI : IVec Cert.KernelIdeal.S2x1600000 32) : rSrc EI = kSrc EI := rfl

/-- The same destinations. -/
private theorem dst_eq (EI : IVec Cert.KernelIdeal.S2x1600000 32) : rDst EI = kDst EI := rfl

/-- The same index normalisation. -/
private theorem wrap_eq (idx : IVec Cert.KernelIdeal.S1700000 32) : rWrap idx = kWrap idx := rfl

/-- The same in-degrees: the same scatter of ones at the same destinations. -/
private theorem deg_eq (EI : IVec Cert.KernelIdeal.S2x1600000 32) : rDeg EI = kDeg EI := by
  unfold rDeg kDeg
  rw [dst_eq, scatterDeg_eq]

/-- The same guarded reciprocal square roots of the degrees. -/
private theorem dinv_eq (EI : IVec Cert.KernelIdeal.S2x1600000 32) : rDinv EI = kDinv EI := by
  unfold rDinv kDinv
  rw [deg_eq]

/-- The same per-edge coefficient: the same gathers of the same vector at the same indices. -/
private theorem norm_eq (EI : IVec Cert.KernelIdeal.S2x1600000 32) : rNorm EI = kNorm EI := by
  unfold rNorm kNorm
  rw [dinv_eq, src_eq, dst_eq, wrap_eq, wrap_eq, gatherVec_eq]

/-- The same aggregation of the same four ingredients. -/
private theorem aggOf_eq (src dst : IVec Cert.KernelIdeal.S1700000 32) (nrm : FVec Ideal Cert.KernelIdeal.S1700000 .f32)
    (h : FVec Ideal Cert.KernelIdeal.S100000x128 .f32) :
    Cert.ReferenceIdeal.RefChain.aggOf src dst nrm h = Cert.KernelIdeal.KChain.aggOf src dst nrm h := by
  unfold Cert.ReferenceIdeal.RefChain.aggOf Cert.KernelIdeal.KChain.aggOf
  rw [wrap_eq, gatherRows_eq, scatterAgg_eq]

/-- Same edge list, same features: same aggregate. -/
theorem rAgg_eq (EI : IVec Cert.KernelIdeal.S2x1600000 32) (h : FVec Ideal Cert.KernelIdeal.S100000x128 .f32) :
    Cert.ReferenceIdeal.RefChain.rAgg EI h = Cert.KernelIdeal.KChain.kAgg EI h := by
  unfold rAgg kAgg
  rw [src_eq, dst_eq, norm_eq, aggOf_eq]

/-- The reference's dimension record is the plain one: rows by columns, one contracted axis, no batch axis. -/
private theorem refDot_plain : PlainDot.IsPlain (R := 100000) (K := 128) (N := 128)
    Cert.ReferenceIdeal.dot_S100000x128_S128x128_S100000x128_1_0_0_1_n_n :=
  ⟨rfl, rfl, rfl, rfl, rfl, rfl⟩

/-- The reference's linear transform is the product of the features by the transposed weights. -/
theorem lin_eq (X : FVec Ideal Cert.KernelIdeal.S100000x128 .f32) (W : FVec Ideal Cert.KernelIdeal.S128x128 .f32) :
    Host.dotGeneral (F := Ideal) Cert.ReferenceIdeal.dot_S100000x128_S128x128_S100000x128_1_0_0_1_n_n none X
        (transpose Cert.ReferenceIdeal.S128x128 [1, 0] W Cert.ReferenceIdeal.Gen.facts.transposes_S128x128_S128x128_1_0)
      = RowBlockProduct.prod (R := 100000) (K := 128) (N := 128) X
          (transpose Cert.KernelIdeal.S128x128 [1, 0] W Cert.KernelIdeal.Gen.facts.transposes_S128x128_S128x128_1_0) := by
  rw [RowBlockProduct.dotGeneral_eq_prod refDot_plain]

end Cert.AggSame

end
-- ==== Proof.AggReal.lean ====
/-
  Every entry of the aggregate is a real number when the transformed features are. The in-degrees are sums of ones onto
  zeros: real and non-negative; where the degree is positive its reciprocal square root is a positive real, elsewhere the
  guard selects zero; gathers, products, broadcasts and the accumulating scatter keep real arrays real.
-/
import proofs.«109825_j67920612819495_1_alg».proof.Proof.KChain
import proofs.«109825_j67920612819495_1_alg».proof.Proof.LibERealArith
import proofs.«109825_j67920612819495_1_alg».proof.Proof.LibRealArr

noncomputable section

namespace Cert.KernelIdeal.AggReal

open Idealize.ShloMosaic Cert.KernelIdeal Cert.KernelIdeal.Gen Cert.KernelIdeal.KChain Cert.Val

/-- One entry of a guarded choice is real when the branch the guard picks is real there. -/
theorem isReal_select_at {s : Shape} {c : IVec s 1} {a b : s.Idx → EReal} (i : s.Idx)
    (ha : c i = 1#1 → IsReal (a i)) (hb : c i ≠ 1#1 → IsReal (b i)) : IsReal (select c a b i) := by
  show IsReal (Scalar.select (c i) (a i) (b i))
  unfold Scalar.select
  split
  · next hc => exact ha hc
  · next hc => exact hb hc

/-- Where "greater than" against a zero entry sets its bit, a real entry is positive. -/
theorem pos_of_cmpf_ogt {s : Shape} {φ : FTy} {x z : FVec Ideal s φ} {r : ℝ} (i : s.Idx) (hx : x i = (r : EReal))
    (hz : z i = ((0 : ℝ) : EReal)) (hc : cmpf .ogt x z i = 1#1) : 0 < r := by
  change Ideal.cmp .ogt (x i) (z i) = 1#1 at hc
  rw [hx, hz, Cert.Lib.ERealArith.cmp_ogt_coe] at hc
  by_contra hn
  rw [decide_eq_false hn] at hc
  exact absurd hc (by decide)

/-- One entry of the host's reciprocal square root is real where the argument's entry is a positive real. -/
theorem isReal_hostRsqrt_at {s : Shape} {φ : FTy} {x : FVec Ideal s φ} (i : s.Idx)
    (hx : ∃ r : ℝ, x i = (r : EReal) ∧ 0 < r) : IsReal (Host.rsqrt x i) := by
  obtain ⟨q, hq, _⟩ := rsqrt_pos_real hx
  exact ⟨q, hq⟩

/-- Every in-degree is a nonnegative real: ones added onto zeros. -/
theorem kDeg_nonneg (EI : IVec S2x1600000 32) : ∀ i, ∃ r : ℝ, kDeg EI i = (r : EReal) ∧ 0 ≤ r := by
  unfold kDeg
  exact scatterAdd_nonneg _ _ (fun _ => ⟨0, Cert.Lib.ERealArith.ofBits_zero, le_refl 0⟩)
    (fun _ => ⟨1, Cert.Lib.ERealArith.ofBits_one, zero_le_one⟩)

/-- The guarded reciprocal square roots of the in-degrees are real: a positive degree has a positive real reciprocal
    square root, and elsewhere the guard picks zero. -/
theorem kDinv_real (EI : IVec S2x1600000 32) : IsRealArr (kDinv EI) := by
  intro i
  unfold kDinv
  refine isReal_select_at i (fun hc => ?_) (fun _ => ⟨0, Cert.Lib.ERealArith.ofBits_zero⟩)
  obtain ⟨r, hr, _⟩ := kDeg_nonneg EI i
  have hpos : 0 < r := pos_of_cmpf_ogt i hr Cert.Lib.ERealArith.ofBits_zero hc
  exact isReal_hostRsqrt_at i ⟨r, hr, hpos⟩

/-- The per-edge coefficient is real: a product of two entries of the guarded reciprocal square roots. -/
theorem kNorm_real (EI : IVec S2x1600000 32) : IsRealArr (kNorm EI) := by
  unfold kNorm
  exact isRealArr_mulf (isRealArr_gather _ _ (kDinv_real EI)) (isRealArr_gather _ _ (kDinv_real EI))

/-- The aggregate of real features is real, whatever the edge list. -/
theorem kAgg_real (EI : IVec S2x1600000 32) (h : FVec Ideal S100000x128 .f32) (hh : IsRealArr h) : IsRealArr (kAgg EI h) := by
  unfold kAgg aggOf
  refine isRealArr_scatterAdd _ _ (isRealArr_broadcastInDim _ _ isRealArr_constant_zero) ?_
  exact isRealArr_mulf (isRealArr_gather _ _ hh)
    (isRealArr_broadcastInDim _ _ (isRealArr_broadcastInDim _ _ (kNorm_real EI)))

end Cert.KernelIdeal.AggReal

end
-- ==== Proof.TailSpec.lean ====
/-
  The tail of the layer as the reference states it, index by index: per channel q, with o n = a(n, q) + B q,
  mean q = (sum over the nodes of o) / 100000, var q = (sum over the nodes of (o - mean)^2) / 100000, and per entry
  max((o - mean) * rsqrt(var + eps) * G q + Be q, 0) + x.
-/
import proofs.«109825_j67920612819495_1_alg».proof.Proof.Spec

noncomputable section

namespace Cert.Spec

open Idealize.ShloMosaic Idealize.ShloMosaic.ValueIdx
open scoped BigOperators

/-- channels -/
abbrev SC : Shape := ⟨1, ![128]⟩

/-- Entry (n, q) of `a` plus the bias of channel q, the bias a plain vector. -/
def biasedV (a : SNC.Idx → EReal) (B : SC.Idx → EReal) (n : Fin 100000) (q : Fin 128) : EReal := a (ix2 n q) + B (ix1 q)

/-- The batch mean of channel q. -/
def meanV (a : SNC.Idx → EReal) (B : SC.Idx → EReal) (q : Fin 128) : EReal :=
  Ideal.div (∑ n : Fin 100000, biasedV a B n q) cN

/-- The batch variance of channel q: the mean of the squared deviations from the batch mean. -/
def varV (a : SNC.Idx → EReal) (B : SC.Idx → EReal) (q : Fin 128) : EReal :=
  Ideal.div (∑ n : Fin 100000, (biasedV a B n q - meanV a B q) * (biasedV a B n q - meanV a B q)) cN

/-- The reference's tail at entry i. -/
def refTail (a : SNC.Idx → EReal) (B G Be : SC.Idx → EReal) (x : SNC.Idx → EReal) : SNC.Idx → EReal :=
  fun i => max ((biasedV a B (i 0) (i 1) - meanV a B (i 1)) * Ideal.rsqrt (varV a B (i 1) + cEps) * G (ix1 (i 1))
      + Be (ix1 (i 1))) cZero + x i

end Cert.Spec

end
-- ==== Proof.KTail.lean ====
/-
  The kernel program's tail is the reference's: with the biased entries real, "mean of squares minus squared mean" is the
  mean of the squared deviations, so the two variances agree and with them every entry of the result.
-/
import proofs.«109825_j67920612819495_1_alg».proof.Proof.KChain
import proofs.«109825_j67920612819495_1_alg».proof.Proof.TailSpec
import proofs.«109825_j67920612819495_1_alg».proof.Proof.LibERealArith
import proofs.«109825_j67920612819495_1_alg».proof.Proof.LibRealArr
import proofs.«109825_j67920612819495_1_alg».proof.Proof.LibRowSpread
import Idealize.ShloMosaic.Lib.Pipeline.Value
import Idealize.ShloMosaic.Lib.ValueIdx

noncomputable section

namespace Cert.KernelIdeal.KTail

open Idealize.ShloMosaic Idealize.ShloMosaic.ValueIdx Cert.KernelIdeal Cert.KernelIdeal.Gen Cert.KernelIdeal.KChain Cert.Val
open scoped BigOperators

/-- The one-row matrix of a vector, read at (0, q), is the vector's entry q. -/
private theorem rowOf_apply (v : FVec Ideal S128 .f32) (q : Fin 128) : rowOf v (ix2 (0 : Fin 1) q) = v (ix1 q) :=
  Cert.Lib.RowSpread.asRow_apply v shapeCasts_S128_S1x128 0 q

/-- A row divided by the word 100000, read at an entry: the entry's quotient by that word. -/
private theorem overN_apply (s : FVec Ideal S1x128 .f32) (j : S1x128.Idx) : overN s j = Ideal.div (s j) Cert.Spec.cN := rfl

/-- The biased entry with the bias as a one-row matrix is the biased entry with the bias as a vector. -/
private theorem biased_rowOf (a : FVec Ideal S100000x128 .f32) (B : FVec Ideal S128 .f32) (n : Fin 100000) (q : Fin 128) :
    Cert.Spec.biased a (rowOf B) n q = Cert.Spec.biasedV a B n q := by
  unfold Cert.Spec.biased Cert.Spec.biasedV
  rw [rowOf_apply]

/-- The kernel program's mean row at channel q is the batch mean of channel q. -/
private theorem mean_eq (a : FVec Ideal S100000x128 .f32) (B : FVec Ideal S128 .f32) (q : Fin 128) :
    overN (Cert.Spec.sumRow a (rowOf B)) (ix2 (0 : Fin 1) q) = Cert.Spec.meanV a B q := by
  rw [overN_apply]
  unfold Cert.Spec.sumRow Cert.Spec.meanV
  simp only [biased_rowOf]

/-- The kernel program's variance row at channel q — mean of squares minus squared mean — is the batch variance of
    channel q, the mean of the squared deviations, when the channel's biased entries are real. -/
private theorem var_eq (a : FVec Ideal S100000x128 .f32) (B : FVec Ideal S128 .f32) (q : Fin 128)
    (ho : ∀ n : Fin 100000, IsReal (Cert.Spec.biasedV a B n q)) :
    subf (overN (Cert.Spec.sumSqRow a (rowOf B)))
        (mulf (overN (Cert.Spec.sumRow a (rowOf B))) (overN (Cert.Spec.sumRow a (rowOf B)))) (ix2 (0 : Fin 1) q)
      = Cert.Spec.varV a B q := by
  rw [subf_apply, mulf_apply, mean_eq, overN_apply]
  unfold Cert.Spec.sumSqRow Cert.Spec.varV Cert.Spec.meanV
  simp only [biased_rowOf]
  exact (Cert.Spec.var_identity (fun n => Cert.Spec.biasedV a B n q) ho).symm

/-- With every biased entry real, the epilogue at the kernel program's statistics is the reference's tail. -/
theorem tail_eq (a : FVec Ideal S100000x128 .f32) (B G Be : FVec Ideal S128 .f32) (x : FVec Ideal S100000x128 .f32)
    (ho : ∀ (n : Fin 100000) (q : Fin 128), IsReal (Cert.Spec.biasedV a B n q)) :
    Cert.Spec.epilogue a (rowOf B) (overN (Cert.Spec.sumRow a (rowOf B)))
        (subf (overN (Cert.Spec.sumSqRow a (rowOf B)))
          (mulf (overN (Cert.Spec.sumRow a (rowOf B))) (overN (Cert.Spec.sumRow a (rowOf B)))))
        (rowOf G) (rowOf Be) x
      = Cert.Spec.refTail a B G Be x := by
  funext i
  obtain ⟨n, q, rfl⟩ : ∃ (n : Fin 100000) (q : Fin 128), i = ix2 n q := ⟨i 0, i 1, eq_ix2 i⟩
  show max ((Cert.Spec.biased a (rowOf B) n q - overN (Cert.Spec.sumRow a (rowOf B)) (ix2 (0 : Fin 1) q))
        * Ideal.rsqrt (subf (overN (Cert.Spec.sumSqRow a (rowOf B)))
            (mulf (overN (Cert.Spec.sumRow a (rowOf B))) (overN (Cert.Spec.sumRow a (rowOf B)))) (ix2 (0 : Fin 1) q)
          + Cert.Spec.cEps)
        * rowOf G (ix2 (0 : Fin 1) q) + rowOf Be (ix2 (0 : Fin 1) q)) Cert.Spec.cZero + x (ix2 n q)
    = max ((Cert.Spec.biasedV a B n q - Cert.Spec.meanV a B q) * Ideal.rsqrt (Cert.Spec.varV a B q + Cert.Spec.cEps)
        * G (ix1 q) + Be (ix1 q)) Cert.Spec.cZero + x (ix2 n q)
  rw [biased_rowOf, mean_eq, var_eq a B q (fun n => ho n q), rowOf_apply, rowOf_apply]

end Cert.KernelIdeal.KTail

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RefTail.lean ====
/-
  What the reference's tail computes, index by index: the host reductions are sums over the nodes, the spreads read
  channel q at every row, jnp.var's guard "count minus ddof > 0" is true at ddof = 0, so the variance is the mean of the
  squared deviations.
-/
import proofs.«109825_j67920612819495_1_alg».proof.Proof.RefChain
import proofs.«109825_j67920612819495_1_alg».proof.Proof.TailSpec
import proofs.«109825_j67920612819495_1_alg».proof.Proof.LibERealArith
import proofs.«109825_j67920612819495_1_alg».proof.Proof.LibRealArr
import proofs.«109825_j67920612819495_1_alg».proof.Proof.LibBroadcastInDim
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.ReferenceIdeal.RefTail

open Idealize.ShloMosaic Idealize.ShloMosaic.ValueIdx Cert.ReferenceIdeal Cert.ReferenceIdeal.Gen Cert.ReferenceIdeal.RefChain
open scoped BigOperators

/-- A channel vector spread over all rows reads, at (n, q), the vector at q. -/
private theorem spread_apply (v : FVec Ideal S128 .f32) (n : Fin 100000) (q : Fin 128) : spread v (ix2 n q) = v (ix1 q) := by
  unfold spread
  rw [ValueLayout.bcast_1n_rn_apply, ValueLayout.bcast_n_1n_apply]

/-- A scalar broadcast to the channel vector reads the scalar. -/
private theorem scalar128_apply {α : Type} (x : S_.Idx → α) (q : Fin 128) : broadcastInDim S128 ![] bcast_S_S128 x (ix1 q) = x ix0 :=
  broadcastInDim_scalar_apply _ x _

/-- Summing a [100000, 128] array over its rows leaves the 128 channels. -/
private theorem reduces0 : S100000x128.Reduces [0] S128 := by decide

/-- Channel q with node n put back on the summed axis is the entry (n, q). -/
private theorem lift_eq (n : Fin 100000) (q : Fin 128) : reduces0.lift (ix1 q) n = ix2 n q := by
  funext c
  match c with
  | ⟨0, _⟩ => exact Fin.ext rfl
  | ⟨1, _⟩ => exact Fin.ext rfl

/-- The host's sum over the nodes from the zero word, at channel q. -/
private theorem colSum_apply (o : FVec Ideal S100000x128 .f32) (q : Fin 128) :
    Host.reduceAdd o (constant (F := Ideal) S_ .f32 0x00000000#32) reducesTo_S100000x128_S128_d0 h_S_ (ix1 q)
      = ∑ n : Fin 100000, o (ix2 n q) := by
  rw [hostReduceAdd_apply, Ideal.hostReduceAdd_single reducesTo_S100000x128_S128_d0 reduces0, constant_apply,
    Ideal.ofBits_zero_f32, zero_add]
  exact Finset.sum_congr rfl fun n _ => congrArg o (lift_eq n q)

open Cert.Lib.ERealArith in
/-- jnp.var's divisor, "count minus ddof" at ddof = 0: the word 100000 minus the integer zero read as a float. -/
private theorem count_eq :
    subf (constant (F := Ideal) S_ .f32 0x47C35000#32) (sitofp (F := Ideal) .f32 (constantI S_ 32 0#32)) ix0 = Cert.Spec.cN := by
  rw [subf_apply, constant_apply, sitofp_apply, sitofp_coe]
  have h0 : ((constantI S_ 32 0#32 : IVec S_ 32) ix0).toInt = 0 := by decide
  rw [h0, Int.cast_zero, EReal.coe_zero, sub_zero]

open Cert.Lib.ERealArith in
/-- jnp.var's guard "count minus ddof > 0" holds: its bit is set. -/
private theorem guard_eq :
    cmpf .ogt (subf (constant (F := Ideal) S_ .f32 0x47C35000#32) (sitofp (F := Ideal) .f32 (constantI S_ 32 0#32)))
      (constant (F := Ideal) S_ .f32 0x00000000#32) ix0 = 1#1 := by
  rw [cmpf_apply, count_eq, constant_apply]
  show FloatOps.cmpf (F := Ideal) (φ := .f32) .ogt (Ideal.ofBits .f32 0x47C35000#32) (Ideal.ofBits .f32 0x00000000#32) = 1#1
  rw [ofBits_100000, ofBits_zero]
  exact cmpf_ogt_coe_of_lt (by norm_num)

/-- The host's reciprocal square root at an index. -/
private theorem hostRsqrt_apply {s : Shape} (x : FVec Ideal s .f32) (i : s.Idx) : Host.rsqrt x i = Ideal.rsqrt (x i) := rfl

/-- A scalar broadcast to the one-row matrix reads the scalar. -/
private theorem scalar1x128_apply (x : FVec Ideal S_ .f32) (u : Fin 1) (q : Fin 128) :
    broadcastInDim S1x128 ![] bcast_S_S1x128 x (ix2 u q) = x ix0 :=
  broadcastInDim_scalar_apply _ x _

/-- jnp.var at channel q: the guard taken, the mean of the squared deviations from the mean, both quotients by 100000. -/
private theorem rVar_apply (o : FVec Ideal S100000x128 .f32) (q : Fin 128) :
    rVar o (ix1 q)
      = Ideal.div (∑ n : Fin 100000, (o (ix2 n q) - Ideal.div (∑ k : Fin 100000, o (ix2 k q)) Cert.Spec.cN)
          * (o (ix2 n q) - Ideal.div (∑ k : Fin 100000, o (ix2 k q)) Cert.Spec.cN)) Cert.Spec.cN := by
  unfold rVar
  simp only []
  rw [select_apply, scalar128_apply, scalar128_apply, guard_eq, select_one, hostDivf_apply, scalar128_apply,
    count_eq, colSum_apply]
  refine congrArg (fun s => Ideal.div s Cert.Spec.cN) (Finset.sum_congr rfl fun n _ => ?_)
  rw [mulf_apply, subf_apply, ValueLayout.bcast_1n_rn_apply, hostDivf_apply, ValueLayout.bcast_n_1n_apply, colSum_apply,
    scalar1x128_apply, constant_apply]

/-- The reference's tail is the specification's, for any aggregate and arguments. -/
theorem rTail_eq (a X : FVec Ideal S100000x128 .f32) (B G Be : FVec Ideal S128 .f32) :
    rTail a X B G Be = Cert.Spec.refTail a B G Be X := by
  funext i
  obtain ⟨n, q, rfl⟩ : ∃ (n : Fin 100000) (q : Fin 128), i = ix2 n q := ⟨i 0, i 1, eq_ix2 i⟩
  unfold rTail Cert.Spec.refTail
  simp only []
  -- the pointwise operations and the four spreads at (n, q)
  rw [addf_apply, maximumf_apply, addf_apply, mulf_apply, mulf_apply, subf_apply, spread_apply, spread_apply, spread_apply,
    spread_apply]
  have ho : ∀ k : Fin 100000, addf a (spread B) (ix2 k q) = Cert.Spec.biasedV a B k q := fun k => by
    rw [addf_apply, spread_apply]; rfl
  -- the rectifier's zero, the mean as a sum over the nodes, the variance as jnp.var computes it
  rw [broadcastInDim_scalar_apply, constant_apply, hostDivf_apply, scalar128_apply, constant_apply, colSum_apply,
    hostRsqrt_apply, addf_apply (rVar _), rVar_apply, scalar128_apply, constant_apply]
  -- every entry of o under the sums is the biased entry; the words 100000, 1e-5 and 0 are the specification's constants
  simp only [ho]
  rfl

end Cert.ReferenceIdeal.RefTail

end
-- ==== Proof.Bridge.lean ====
/-
  The two programs compute one function of finite arguments. The linear transforms agree (a matrix product by row blocks
  is the whole product); the aggregations are the same operations; with real features and weights the aggregate is real,
  so with a real bias every biased entry is real, and there "mean of squares minus squared mean" is the variance: the
  kernel program's tail is the reference's.
-/
import proofs.«109825_j67920612819495_1_alg».proof.Proof.KChain
import proofs.«109825_j67920612819495_1_alg».proof.Proof.RefChain
import proofs.«109825_j67920612819495_1_alg».proof.Proof.AggSame
import proofs.«109825_j67920612819495_1_alg».proof.Proof.AggReal
import proofs.«109825_j67920612819495_1_alg».proof.Proof.KTail
import proofs.«109825_j67920612819495_1_alg».proof.Proof.RefTail
import proofs.«109825_j67920612819495_1_alg».proof.Proof.LibRealArr
import proofs.«109825_j67920612819495_1_alg».proof.Proof.LibRowBlockProduct

noncomputable section

namespace Cert.Bridge

open Idealize.ShloMosaic Idealize.ShloMosaic.ValueIdx Cert.Val
open Cert.KernelIdeal Cert.KernelIdeal.Gen Cert.KernelIdeal.KChain

/-- The product of a real matrix by the transpose of a real matrix is real. -/
theorem prod_real (X : FVec Ideal S100000x128 .f32) (W : FVec Ideal S128x128 .f32) (hX : IsRealArr X) (hW : IsRealArr W) :
    IsRealArr (RowBlockProduct.prod (R := 100000) (K := 128) (N := 128) X
      (transpose S128x128 [1, 0] W transposes_S128x128_S128x128_1_0)) := by
  intro i
  obtain ⟨p, q, rfl⟩ : ∃ (p : Fin 100000) (q : Fin 128), i = ix2 p q := ⟨i 0, i 1, eq_ix2 i⟩
  rw [RowBlockProduct.prod_apply]
  exact IsReal.sum _ _ fun k _ => IsReal.mul (hX _) (isRealArr_transpose [1, 0] transposes_S128x128_S128x128_1_0 hW _)

/-- On real features, weights and bias the kernel program's result function is the reference's. -/
theorem out_eq (X : FVec Ideal S100000x128 .f32) (EI : IVec S2x1600000 32) (W : FVec Ideal S128x128 .f32)
    (B G Be : FVec Ideal S128 .f32) (hX : IsRealArr X) (hW : IsRealArr W) (hB : IsRealArr B) :
    kOut X EI W B G Be = Cert.ReferenceIdeal.RefChain.rOut X EI W B G Be := by
  unfold Cert.ReferenceIdeal.RefChain.rOut
  rw [Cert.AggSame.lin_eq, Cert.AggSame.rAgg_eq, Cert.ReferenceIdeal.RefTail.rTail_eq]
  exact Cert.KernelIdeal.KTail.tail_eq _ B G Be X fun n q =>
    IsReal.add (Cert.KernelIdeal.AggReal.kAgg_real EI _ (prod_real X W hX hW) (ix2 n q)) (hB (ix1 q))

end Cert.Bridge

end
-- ==== Proof.Finite.lean ====
/-
  Finiteness: the precondition says every entry of each float argument has absolute value below +inf; at the ideal
  instance that makes every entry a real number.
-/
import proofs.«109825_j67920612819495_1_alg».proof.Defs
import proofs.«109825_j67920612819495_1_alg».proof.Proof.Gen.KernelIdeal
import proofs.«109825_j67920612819495_1_alg».proof.Proof.Gen.Pre_finite_inputs
import proofs.«109825_j67920612819495_1_alg».proof.Proof.LibERealArith
import proofs.«109825_j67920612819495_1_alg».proof.Proof.LibRealArr
import Idealize.ShloMosaic.Lib.ReduceAll
import Idealize.ShloMosaic.Lib.ValueIdx

noncomputable section

namespace Cert.Finite

open Idealize.ShloMosaic Idealize.SL.Sem Cert.KernelIdeal Cert.Val

/-- The rank-0 shape has one index. -/
private instance subsingleton_scalarIdx : Subsingleton (⟨0, ![]⟩ : Shape).Idx := ⟨fun a b => funext fun d => d.elim0⟩

/-- On one value: if |x| < +inf holds as a comparison at the ideal instance, then x is a real number. -/
private theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- An array all of whose entries pass |x| < +inf (the conjunction over all axes is 1) holds real numbers only. -/
private theorem isRealArr_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (init : IVec (⟨0, ![]⟩ : Shape) 1)
    (e : Host.reduce IntOp.andi
          (cmpf .olt (Host.absf x) (broadcastInDim s ![] hb (constant (⟨0, ![]⟩ : Shape) .f32 0x7F800000#32)))
          init hr hu ValueIdx.ix0 = 1#1) :
    IsRealArr (x : s.Idx → EReal) := fun i =>
  real_of_abs_lt_inf (x i) (Host.reduce_andi_all _ init hr hu ValueIdx.ix0 e i)

/-- Under the precondition every float argument array of the idealized kernel program holds real numbers only. -/
theorem real_args (m : (ℓ : Loc nD τ sig) → Buf (Elt Ideal) ℓ) (h : Cert.Pre_KernelIdeal m) (c : Dev nD) :
    IsRealArr (m ((c.tc : Thread nD τ).loc main_arg0) : S100000x128.Idx → EReal)
    ∧ IsRealArr (m ((c.tc : Thread nD τ).loc main_arg2) : S128x128.Idx → EReal)
    ∧ IsRealArr (m ((c.tc : Thread nD τ).loc main_arg3) : S128.Idx → EReal)
    ∧ IsRealArr (m ((c.tc : Thread nD τ).loc main_arg4) : S128.Idx → EReal)
    ∧ IsRealArr (m ((c.tc : Thread nD τ).loc main_arg5) : S128.Idx → EReal) := by
  have h0 := congrFun (h c) ValueIdx.ix0
  unfold Cert.Pre_finite_inputs.fn Cert.Pre_finite_inputs.fn_part1 at h0
  dsimp only at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨isRealArr_of_all _ _ _ _ _ e0, isRealArr_of_all _ _ _ _ _ e2, isRealArr_of_all _ _ _ _ _ e3,
    isRealArr_of_all _ _ _ _ _ e4, isRealArr_of_all _ _ _ _ _ e5⟩

end Cert.Finite

end
-- ==== Proof.lean ====
/-
  The certificate of a graph-convolution layer with batch normalisation: `h = x · Wᵀ`, the symmetric-normalised
  aggregation over the edges and one self-loop per node, the bias, batch statistics over the 100000 nodes, the
  normalisation with scale and shift, the rectifier and the residual.

  The kernel program runs three kernels among host operations: the linear transform by blocks of 5000 rows, the
  per-channel sums of the biased aggregate and of its square accumulated over the 20 blocks, and the pointwise epilogue;
  between them the host gathers, scales and scatter-adds exactly as the reference does, and forms the variance as the mean
  of squares minus the squared mean, where the reference takes the mean of the squared deviations. At the ideal instance
  the two agree once every entry is a real number, which finite inputs give: the degrees are positive counts, their
  reciprocal roots are real, sums and products of reals are real.

  * the three frames: the kernel programs' are generated; the reference's is its run with the result dropped;
  * `preserves`: the idealization rewrote nothing;
  * `algebraic`: the kernel program ends at `kOut` of its arguments, the reference at `rOut` of its own, and on finite
    agreeing arguments these are one array.
-/
import proofs.«109825_j67920612819495_1_alg».proof.Defs
import proofs.«109825_j67920612819495_1_alg».proof.Proof.Gen.Kernel
import proofs.«109825_j67920612819495_1_alg».proof.Proof.Gen.Kernel.Skeleton
import proofs.«109825_j67920612819495_1_alg».proof.Proof.Gen.Kernel.Launch
import proofs.«109825_j67920612819495_1_alg».proof.Proof.Gen.Kernel.Points
import proofs.«109825_j67920612819495_1_alg».proof.Proof.Gen.Kernel.Frame
import proofs.«109825_j67920612819495_1_alg».proof.Proof.Gen.KernelIdeal
import proofs.«109825_j67920612819495_1_alg».proof.Proof.Gen.KernelIdeal.Skeleton
import proofs.«109825_j67920612819495_1_alg».proof.Proof.Gen.KernelIdeal.Launch
import proofs.«109825_j67920612819495_1_alg».proof.Proof.Gen.KernelIdeal.Points
import proofs.«109825_j67920612819495_1_alg».proof.Proof.Gen.KernelIdeal.Frame
import proofs.«109825_j67920612819495_1_alg».proof.Proof.Gen.ReferenceIdeal
import proofs.«109825_j67920612819495_1_alg».proof.Proof.Gen.Pre_finite_inputs
import proofs.«109825_j67920612819495_1_alg».proof.Proof.KRun
import proofs.«109825_j67920612819495_1_alg».proof.Proof.KValue
import proofs.«109825_j67920612819495_1_alg».proof.Proof.RefRun
import proofs.«109825_j67920612819495_1_alg».proof.Proof.Bridge
import proofs.«109825_j67920612819495_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run m ρ)

/-- Both runs end at one array: the kernel program's result function of its arguments, which on finite arguments is
    the reference's. -/
theorem algebraic : Cert.algebraic_KernelIdeal_ReferenceIdeal := by
  intro m ρ m' ρ' hpre hagree
  refine ⟨fun c => Cert.KernelIdeal.KChain.kOut (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4))
      (m ((c.tc : Thread _ _).loc Cert.KernelIdeal.main_arg5)), ?_, ?_⟩
  · exact (θ_run Cert.KernelIdeal.defs _ _).mono
      (fun r h c => ⟨(h c).1.trans (Cert.KernelIdeal.KValue.W8_out m ρ c), (h c).2⟩) (Cert.KernelIdeal.KRun.run_W8 m ρ)
  · refine (θ_run Cert.ReferenceIdeal.defs _ _).mono (fun r h c => ⟨(h c).1.trans ?_, (h c).2⟩)
      (Cert.ReferenceIdeal.RefRun.run m' ρ')
    obtain ⟨h0, h1, h2, h3, h4, h5⟩ := hagree c
    obtain ⟨r0, r2, r3, _, _⟩ := Cert.Finite.real_args m hpre c
    rw [h0, h1, h2, h3, h4, h5]
    exact (Cert.Bridge.out_eq _ _ _ _ _ _ r0 r2 r3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
